-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x800000_S1x800000_0_0 : S2x800000.Slices ![0, 0] S1x800000
  shapeCasts_S1x800000_S800000 : S1x800000.ShapeCasts S800000

variable [Facts]

def fn_part2 {F : FTy → Type} [FloatOps F] (main_arg1 : IVec S2x800000 32) (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : IVec S1x800000 32 := (extractStridedSlice S1x800000 ![0, 0] · slices_S2x800000_S1x800000_0_0) main_arg1
  let main_v40 : IVec S800000 32 := shapeCast S800000 main_v39 shapeCasts_S1x800000_S800000
  let main_c_14 : IVec S_ 32 := constantI S_ 32 4294917296#32
  let main_v41 : IVec S800000 32 := broadcastInDim S800000 ![] bcast_S_S800000 main_c_14
  let main_v42 : IVec S800000 1 := cmpi .sge main_v40 main_v41
  let main_c_15 : IVec S_ 1 := constantI S_ 1 1#1
  let main_v43 : IVec S_ 1 := (fun x v => Host.reduce IntOp.andi x v reducesTo_S800000_S_d0 h_S_) main_v42 main_c_15
  let main_v44 : IVec S_ 1 := andi main_v38 main_v43
  let main_v45 : IVec S1x800000 32 := (extractStridedSlice S1x800000 ![0, 0] · slices_S2x800000_S1x800000_0_0) main_arg1
  let main_v46 : IVec S800000 32 := shapeCast S800000 main_v45 shapeCasts_S1x800000_S800000
  let main_c_16 : IVec S_ 32 := constantI S_ 32 50000#32
  let main_v47 : IVec S800000 32 := broadcastInDim S800000 ![] bcast_S_S800000 main_c_16
  let main_v48 : IVec S800000 1 := cmpi .slt main_v46 main_v47
  let main_c_17 : IVec S_ 1 := constantI S_ 1 1#1
  let main_v49 : IVec S_ 1 := (fun x v => Host.reduce IntOp.andi x v reducesTo_S800000_S_d0 h_S_) main_v48 main_c_17
  let main_v50 : IVec S_ 1 := andi main_v44 main_v49
  main_v50

def fn_part1 {F : FTy → Type} [FloatOps F] (main_arg1 : IVec S2x800000 32) (main_arg5 : FVec F S128x64 .f32) (main_arg6 : FVec F S64 .f32) (main_arg7 : FVec F S64x2 .f32) (main_arg8 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x2 .f32 := Host.absf main_arg7
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg1 main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) (main_arg7 : FVec F S64x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000x1 : Shape := ⟨2, ![800000, 1]⟩
abbrev S10000x128 : Shape := ⟨2, ![10000, 128]⟩
abbrev S_ : Shape := ⟨0, ![]⟩
abbrev S1 : Shape := ⟨1, ![1]⟩
abbrev S1x1 : Shape := ⟨2, ![1, 1]⟩
abbrev S800000x128 : Shape := ⟨2, ![800000, 128]⟩
abbrev S10000x1 : Shape := ⟨2, ![10000, 1]⟩
abbrev S1x128 : Shape := ⟨2, ![1, 128]⟩
abbrev S50000x64 : Shape := ⟨2, ![50000, 64]⟩
abbrev S10000x64 : Shape := ⟨2, ![10000, 64]⟩
abbrev S800000x64 : Shape := ⟨2, ![800000, 64]⟩
abbrev S1x64 : Shape := ⟨2, ![1, 64]⟩
abbrev S1x2 : Shape := ⟨2, ![1, 2]⟩
abbrev S50000x2 : Shape := ⟨2, ![50000, 2]⟩
abbrev S10000x2 : Shape := ⟨2, ![10000, 2]⟩

abbrev nBuf : Space → Nat
  | .hbm => 76
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .f32⟩
  | .hbm, ⟨14, _⟩ => ⟨S50000x128, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x128, .f32⟩
  | .hbm, ⟨34, _⟩ => ⟨S800000x128, .i1⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S1, .i32⟩
  | .hbm, ⟨54, _⟩ => ⟨S_, .i32⟩
  | .hbm, ⟨55, _⟩ => ⟨S800000x1, .i32⟩
  | .hbm, ⟨56, _⟩ => ⟨S800000x1, .i1⟩
  | .hbm, ⟨57, _⟩ => ⟨S1x1, .i32⟩
  | .hbm, ⟨58, _⟩ => ⟨S800000x1, .i32⟩
  | .hbm, ⟨59, _⟩ => ⟨S800000x1, .i1⟩
  | .hbm, ⟨60, _⟩ => ⟨S800000x1, .i1⟩
  | .hbm, ⟨61, _⟩ => ⟨S_, .i1⟩
  | .hbm, ⟨62, _⟩ => ⟨S800000, .i1⟩
  | .hbm, ⟨63, _⟩ => ⟨S800000x64, .f32⟩
  | .hbm, ⟨64, _⟩ => ⟨S800000x64, .i1⟩
  | .hbm, ⟨65, _⟩ => ⟨S_, .f32⟩
  | .hbm, ⟨66, _⟩ => ⟨S800000x64, .f32⟩
  | .hbm, ⟨67, _⟩ => ⟨S800000x64, .f32⟩
  | .hbm, ⟨68, _⟩ => ⟨S800000x64, .f32⟩
  | .hbm, ⟨69, _⟩ => ⟨S_, .f32⟩
  | .hbm, ⟨70, _⟩ => ⟨S50000x64, .f32⟩
  | .hbm, ⟨71, _⟩ => ⟨S800000x1, .i32⟩
  | .hbm, ⟨72, _⟩ => ⟨S50000x64, .f32⟩
  | .hbm, ⟨73, _⟩ => ⟨S1x64, .f32⟩
  | .hbm, ⟨74, _⟩ => ⟨S1x2, .f32⟩
  | .hbm, ⟨75, _⟩ => ⟨S50000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x1, .f32⟩
  | .local _ .vmem, ⟨20, _⟩ => ⟨S10000x1, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S64x2, .f32⟩
  | .local _ .vmem, ⟨27, _⟩ => ⟨S1x2, .f32⟩
  | .local _ .vmem, ⟨28, _⟩ => ⟨S10000x2, .f32⟩
  | .local _ .vmem, ⟨29, _⟩ => ⟨S10000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v13 : Ref sig .tc := ⟨.hbm, 67, rfl⟩
abbrev main_v14 : Ref sig .tc := ⟨.hbm, 68, rfl⟩
abbrev main_cst_0 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem4_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x2 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000_S800000x1 : S800000.ShapeCasts S800000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S10000x64_S10000x64 : S10000x64.ShapeCasts S10000x64
  broadcasts_S10000x1_S10000x64 : S10000x1.Broadcasts S10000x64
  bcast_S_S50000x64 : S_.BroadcastsInDim S50000x64 (![] : Fin 0 → Fin S50000x64.rank)
  shapeCasts_S64_S1x64 : S64.ShapeCasts S1x64
  shapeCasts_S2_S1x2 : S2.ShapeCasts S1x2
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S800000x128.size a
  hwx1_0 : ∀ i : grid1.Coords, EltTy.bits .f32 = 32 ∨ (Rect.block (s := S800000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S800000x1.size a
  hwx1_1 : ∀ i : grid1.Coords, EltTy.bits .f32 = 32 ∨ (Rect.block (s := S800000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S800000x128.size a
  hwx1_2 : ∀ i : grid1.Coords, EltTy.bits .f32 = 32 ∨ (Rect.block (s := S800000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S800000x64.size a
  hwx3_0 : ∀ i : grid3.Coords, EltTy.bits .f32 = 32 ∨ (Rect.block (s := S800000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S800000x1.size a
  hwx3_1 : ∀ i : grid3.Coords, EltTy.bits .f32 = 32 ∨ (Rect.block (s := S800000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S800000x64.size a
  hwx3_2 : ∀ i : grid3.Coords, EltTy.bits .f32 = 32 ∨ (Rect.block (s := S800000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x2.size a ≤ S64x2.size a
  hwx4_2 : ∀ i : grid4.Coords, EltTy.bits .f32 = 32 ∨ (Rect.block (s := S64x2) S64x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x2.size a ≤ S50000x2.size a
  hwx4_4 : ∀ i : grid4.Coords, EltTy.bits .f32 = 32 ∨ (Rect.block (s := S50000x2) S10000x2.size (cc4_transform_4 i) (hinb4_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v17) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v20) S10000x2.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x128, .f32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S1x800000, .i32⟩
  | .hbm, ⟨37, _⟩ => ⟨S800000, .i32⟩
  | .hbm, ⟨38, _⟩ => ⟨S1x800000, .i32⟩
  | .hbm, ⟨39, _⟩ => ⟨S800000, .i32⟩
  | .hbm, ⟨40, _⟩ => ⟨S50000x64, .f32⟩
  | .hbm, ⟨41, _⟩ => ⟨S800000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S50000x64, .f32⟩
  | .hbm, ⟨62, _⟩ => ⟨S50000x64, .f32⟩
  | .hbm, ⟨63, _⟩ => ⟨S50000x2, .f32⟩
  | .hbm, ⟨64, _⟩ => ⟨S1x2, .f32⟩
  | .hbm, ⟨65, _⟩ => ⟨S50000x2, .f32⟩
  | .hbm, ⟨66, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_cst : Ref sig .tc := ⟨.hbm, 60, rfl⟩
abbrev main_call1_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x2_S50000x2_1_0_0_1_n_n_wf : DotDims.WF S50000x64 S64x2 S50000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.Whole.lean ====
/-
  The two-layer graph convolution as whole-array functions.

  Every array the program passes from one kernel call to the next is named here as ONE function of the arrays before
  it, in the operations of the program's own host stretches:
    h1   = x · W1                                    (a [50000,128] by [128,128] product)
    g1   = rows of h1 at the wrapped source nodes    (a take along axis 0)
    m1   = g1 scaled row by row by the edge weight
    a1   = the rows of m1 summed into their destination nodes, from zero
    h2   = max(a1 + b1, 0) · W2
    g2, m2, a2 likewise at width 64
    out  = max(a2 + b2, 0) · Wl + bl
  The source index of an edge is wrapped the NumPy way (a negative index counts from the end); the take then reads the
  clamped row and, in its fill form, replaces a row whose wrapped index is outside [0, 49999] by the fill value.
-/
import proofs.«424225_j3822520893440_1_alg».proof.Proof.Gen.KernelIdeal

noncomputable section

namespace Cert.KernelIdeal.Whole

open Cert.KernelIdeal Cert.KernelIdeal.Gen
open Idealize.ShloMosaic Idealize.ShloMosaic.TcCoe Idealize.SL.Sem

variable {F : FTy → Type} [FloatOps F]

/-! ## Shape facts of the whole-array operations -/

/-- A [n,k] by [k,p] product contracts the left operand's axis 1 with the right operand's axis 0. -/
def dd1 : DotDims S50000x128 S128x128 S50000x128 where
  lhsContracting := [1]
  rhsContracting := [0]
  lhsNonContracting := [0]
  rhsNonContracting := [1]
  lhsBatch := []
  rhsBatch := []
  wf := by decide
def dd2 : DotDims S50000x128 S128x64 S50000x64 where
  lhsContracting := [1]
  rhsContracting := [0]
  lhsNonContracting := [0]
  rhsNonContracting := [1]
  lhsBatch := []
  rhsBatch := []
  wf := by decide
def dd3 : DotDims S50000x64 S64x2 S50000x2 where
  lhsContracting := [1]
  rhsContracting := [0]
  lhsNonContracting := [0]
  rhsNonContracting := [1]
  lhsBatch := []
  rhsBatch := []
  wf := by decide

/-- A column [E,1] broadcasts along the rows of [E,n]; a row [1,n] along the columns of [N,n]. -/
theorem bc_e128 : S800000x1.BroadcastsInDim S800000x128 (![0, 1] : Fin 2 → Fin S800000x128.rank) := by decide
theorem bc_e64 : S800000x1.BroadcastsInDim S800000x64 (![0, 1] : Fin 2 → Fin S800000x64.rank) := by decide
theorem bc_b128 : S1x128.BroadcastsInDim S50000x128 (![0, 1] : Fin 2 → Fin S50000x128.rank) := by decide
theorem bc_b64 : S1x64.BroadcastsInDim S50000x64 (![0, 1] : Fin 2 → Fin S50000x64.rank) := by decide
theorem bc_b2 : S1x2.BroadcastsInDim S50000x2 (![0, 1] : Fin 2 → Fin S50000x2.rank) := by decide

/-! ## The edge list -/

/-- Row 0 of the edge list: each edge's source node. -/
def srcVec (ei : IVec S2x800000 32) : IVec S800000 32 :=
  shapeCast S800000 (extractStridedSlice S1x800000 ![0, 0] ei slices_S2x800000_S1x800000_0_0) shapeCasts_S1x800000_S800000
/-- Row 1 of the edge list: each edge's destination node. -/
def dstVec (ei : IVec S2x800000 32) : IVec S800000 32 :=
  shapeCast S800000 (extractStridedSlice S1x800000 ![1, 0] ei slices_S2x800000_S1x800000_1_0) shapeCasts_S1x800000_S800000

/-- A source index wrapped the NumPy way (s + 50000 where s is negative), as the column of start indices a take reads. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per edge: is the wrapped index inside [0, 49999]? (The fill form of a take keeps exactly those rows.) -/
def inBounds (i2 : IVec S800000x1 32) : IVec S800000 1 :=
  Host.reduce IntOp.andi
    (andi (cmpi .sge i2 (broadcastInDim S800000x1 ![] bcast_S_S800000x1 (constantI S_ 32 0#32)))
      (cmpi .sle i2 (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-! ## The stages -/

/-- Rows of a [50000,128] table at the wrapped sources. -/
def take128 (h : FVec F S50000x128 .f32) (s : IVec S800000 32) : FVec F S800000x128 .f32 :=
  Host.gather gather_S50000x128_S800000x1_S800000x128_1_0_n_n_0_1_1128 h (wrapIdx s)
def take64 (h : FVec F S50000x64 .f32) (s : IVec S800000 32) : FVec F S800000x64 .f32 :=
  Host.gather gather_S50000x64_S800000x1_S800000x64_1_0_n_n_0_1_164 h (wrapIdx s)

/-- The same take in its fill form: a row whose wrapped index is out of bounds is replaced by the fill value. -/
def takeFill128 (h : FVec F S50000x128 .f32) (s : IVec S800000 32) : FVec F S800000x128 .f32 :=
  select (broadcastInDim S800000x128 ![0] bcast_S800000_S800000x128_0 (inBounds (wrapIdx s)))
    (Host.gather gather_S50000x128_S800000x1_S800000x128_1_0_n_n_0_1_1128 h (wrapIdx s))
    (broadcastInDim S800000x128 ![] bcast_S_S800000x128 (constant S_ .f32 0x7FC00000#32))
def takeFill64 (h : FVec F S50000x64 .f32) (s : IVec S800000 32) : FVec F S800000x64 .f32 :=
  select (broadcastInDim S800000x64 ![0] bcast_S800000_S800000x64_0 (inBounds (wrapIdx s)))
    (Host.gather gather_S50000x64_S800000x1_S800000x64_1_0_n_n_0_1_164 h (wrapIdx s))
    (broadcastInDim S800000x64 ![] bcast_S_S800000x64 (constant S_ .f32 0x7FC00000#32))

/-- Each gathered row scaled by its edge's weight (the weight a column [E,1]). -/
def wmul128 (e2 : FVec F S800000x1 .f32) (g : FVec F S800000x128 .f32) : FVec F S800000x128 .f32 :=
  mulf (broadcastInDim S800000x128 ![0, 1] bc_e128 e2) g
def wmul64 (e2 : FVec F S800000x1 .f32) (g : FVec F S800000x64 .f32) : FVec F S800000x64 .f32 :=
  mulf (broadcastInDim S800000x64 ![0, 1] bc_e64 e2) g

/-- The messages summed into their destination nodes, from zero. -/
def agg128 (d : IVec S800000 32) (msg : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d) msg
def agg64 (d : IVec S800000 32) (msg : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d) msg

/-- x · W1. -/
def mm1 (x : FVec F S50000x128 .f32) (w : FVec F S128x128 .f32) : FVec F S50000x128 .f32 :=
  Host.dotGeneral dd1 none x w
/-- max(a + b, 0) · W (the bias a row [1,128]). -/
def brmm128 (a : FVec F S50000x128 .f32) (b2 : FVec F S1x128 .f32) (w : FVec F S128x64 .f32) : FVec F S50000x64 .f32 :=
  Host.dotGeneral dd2 none
    (maximumf (addf a (broadcastInDim S50000x128 ![0, 1] bc_b128 b2))
      (broadcastInDim S50000x128 ![] bcast_S_S50000x128 (constant S_ .f32 0x00000000#32))) w
/-- max(a + b, 0) · W + bl (both biases rows). -/
def brmmb64 (a : FVec F S50000x64 .f32) (b2 : FVec F S1x64 .f32) (w : FVec F S64x2 .f32) (bl2 : FVec F S1x2 .f32) : FVec F S50000x2 .f32 :=
  addf (Host.dotGeneral dd3 none
      (maximumf (addf a (broadcastInDim S50000x64 ![0, 1] bc_b64 b2))
        (broadcastInDim S50000x64 ![] bcast_S_S50000x64 (constant S_ .f32 0x00000000#32))) w)
    (broadcastInDim S50000x2 ![0, 1] bc_b2 bl2)

/-- The whole program: the result array as one function of the nine argument arrays. -/
def out (x : FVec F S50000x128 .f32) (ei : IVec S2x800000 32) (ew : FVec F S800000 .f32) (W1 : FVec F S128x128 .f32)
    (b1 : FVec F S128 .f32) (W2 : FVec F S128x64 .f32) (b2 : FVec F S64 .f32) (Wl : FVec F S64x2 .f32) (bl : FVec F S2 .f32) :
    FVec F S50000x2 .f32 :=
  brmmb64
    (agg64 (dstVec ei) (wmul64 (shapeCast S800000x1 ew shapeCasts_S800000_S800000x1)
      (take64 (brmm128
          (agg128 (dstVec ei) (wmul128 (shapeCast S800000x1 ew shapeCasts_S800000_S800000x1)
            (take128 (mm1 x W1) (srcVec ei))))
          (shapeCast S1x128 b1 shapeCasts_S128_S1x128) W2)
        (srcVec ei))))
    (shapeCast S1x64 b2 shapeCasts_S64_S1x64) Wl (shapeCast S1x2 bl shapeCasts_S2_S1x2)

/-- A source index is a valid NumPy index into a 50000-row table: −50000 ≤ s < 50000, as signed words. -/
def InRange (w : BitVec 32) : Prop :=
  IntOp.cmpi .sge w 4294917296#32 = 1#1 ∧ IntOp.cmpi .slt w 50000#32 = 1#1

end Cert.KernelIdeal.Whole

end
-- ==== Proof.Region0.lean ====
import proofs.«424225_j3822520893440_1_alg».proof.Proof.Gen.KernelIdeal.Frame
import proofs.«424225_j3822520893440_1_alg».proof.Proof.Whole
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

-- the buffer contents the region is entered from: any
variable (V : (c : Dev nD) → (b : Ref sig .tc) → Buf (Elt Ideal) ((c : Thread nD τ).loc b))

/-- The region's two input arrays at their literal types. -/
abbrev xin (c : Dev nD) : FVec Ideal S50000x128 .f32 := V c main_arg0
abbrev win (c : Dev nD) : FVec Ideal S128x128 .f32 := V c main_arg3

/-! ## The two products read at an index -/

/-- The block product: on the left operand's axis 0 the index is the output row. -/
theorem lhs_blk_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- On the left operand's axis 1 it is the contraction coordinate. -/
theorem lhs_blk_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- On the right operand's axis 0 it is the contraction coordinate. -/
theorem rhs_blk_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- On the right operand's axis 1 it is the output column. -/
theorem rhs_blk_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's result block at (p, q): the sum over k of the row block at (p, k) times the weights at (k, q)
    (rounding to bf16 is the identity on the extended reals; the accumulator is zero). -/
theorem pay_apply (x0 : Vec Ideal S10000x128 .f32) (x1 : Vec Ideal S128x128 .f32) (p : Fin 10000) (q : Fin 128) :
    k0_pay1 (F := Ideal) x0 x1 (ValueIdx.ix2 p q) = ∑ k : Fin 128, x0 (ValueIdx.ix2 p k) * x1 (ValueIdx.ix2 k q) := by
  unfold k0_pay1
  refine (Ideal.matmul_constant_zero_apply dot_S10000x128_S128x128_S10000x128_1_0_0_1_n_n none _ _ (ValueIdx.ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ValueIdx.ix2 p q) ((ValueIdx.contrEquiv1 dot_S10000x128_S128x128_S10000x128_1_0_0_1_n_n 128 rfl rfl).symm k) = ValueIdx.ix2 p k := funext fun a => Fin.ext (by
    match a with
    | ⟨0, _⟩ => exact lhs_blk_0 _ _
    | ⟨1, _⟩ => exact (lhs_blk_1 _ _).trans hk)
  have er : dot_S10000x128_S128x128_S10000x128_1_0_0_1_n_n.rhsIdx (ValueIdx.ix2 p q) ((ValueIdx.contrEquiv1 dot_S10000x128_S128x128_S10000x128_1_0_0_1_n_n 128 rfl rfl).symm k) = ValueIdx.ix2 k q := funext fun a => Fin.ext (by
    match a with
    | ⟨0, _⟩ => exact (rhs_blk_0 _ _).trans hk
    | ⟨1, _⟩ => exact rhs_blk_1 _ _)
  rw [el, er]
  rfl

/-- The whole product: on the left operand's axis 0 the index is the output row. -/
theorem lhs_whole_0 (i : S50000x128.Idx) (q : Whole.dd1.contr.Idx) :
    (Whole.dd1.lhsIdx i q 0).val = (i 0).val := by
  unfold DotDims.lhsIdx
  rw [dif_neg (show ¬(0 : Fin S50000x128.rank) ∈ Whole.dd1.lhsBatch by decide), dif_pos (show (0 : Fin S50000x128.rank) ∈ Whole.dd1.lhsNonContracting by decide)]
  rfl
/-- On the left operand's axis 1 it is the contraction coordinate. -/
theorem lhs_whole_1 (i : S50000x128.Idx) (q : Whole.dd1.contr.Idx) :
    (Whole.dd1.lhsIdx i q 1).val = (q ⟨0, by decide⟩).val :=
  Whole.dd1.lhsIdx_val_of_single rfl i q
/-- On the right operand's axis 0 it is the contraction coordinate. -/
theorem rhs_whole_0 (i : S50000x128.Idx) (q : Whole.dd1.contr.Idx) :
    (Whole.dd1.rhsIdx i q 0).val = (q ⟨0, by decide⟩).val :=
  Whole.dd1.rhsIdx_val_of_single rfl i q
/-- On the right operand's axis 1 it is the output column. -/
theorem rhs_whole_1 (i : S50000x128.Idx) (q : Whole.dd1.contr.Idx) :
    (Whole.dd1.rhsIdx i q 1).val = (i 1).val := by
  unfold DotDims.rhsIdx
  rw [dif_neg (show ¬(1 : Fin S128x128.rank) ∈ Whole.dd1.rhsBatch by decide), dif_pos (show (1 : Fin S128x128.rank) ∈ Whole.dd1.rhsNonContracting by decide)]
  rfl

/-- The whole product at (r, q): the sum over k of x at (r, k) times the weights at (k, q). -/
theorem mm1_apply (x : FVec Ideal S50000x128 .f32) (w : FVec Ideal S128x128 .f32) (r : Fin 50000) (q : Fin 128) :
    Whole.mm1 (F := Ideal) x w (ValueIdx.ix2 r q) = ∑ k : Fin 128, x (ValueIdx.ix2 r k) * w (ValueIdx.ix2 k q) := by
  unfold Whole.mm1
  simp only [Host.dotGeneral]
  rw [Ideal.dotGeneral_apply, ← Equiv.sum_comp (ValueIdx.contrEquiv1 Whole.dd1 128 rfl rfl).symm]
  refine Finset.sum_congr rfl fun k _ => ?_
  have hk := ValueIdx.contrEquiv1_symm_val Whole.dd1 128 rfl rfl k
  have el : Whole.dd1.lhsIdx (ValueIdx.ix2 r q) ((ValueIdx.contrEquiv1 Whole.dd1 128 rfl rfl).symm k) = ValueIdx.ix2 r k := funext fun a => Fin.ext (by
    match a with
    | ⟨0, _⟩ => exact lhs_whole_0 _ _
    | ⟨1, _⟩ => exact (lhs_whole_1 _ _).trans hk)
  have er : Whole.dd1.rhsIdx (ValueIdx.ix2 r q) ((ValueIdx.contrEquiv1 Whole.dd1 128 rfl rfl).symm k) = ValueIdx.ix2 k q := funext fun a => Fin.ext (by
    match a with
    | ⟨0, _⟩ => exact (rhs_whole_0 _ _).trans hk
    | ⟨1, _⟩ => exact rhs_whole_1 _ _)
  rw [el, er]

/-! ## Blocks and rows -/

/-- Row p of the block at grid point t is row t·10000 + p of the array. -/
def row (t : Fin cfg0.N) (p : Fin 10000) : Fin 50000 :=
  ⟨t.val * 10000 + p.val, by have ht : t.val < 5 := t.isLt; have hp := p.isLt; omega⟩

theorem hz : (![0, 0] : Fin 2 → Nat) = fun _ => 0 := funext fun a => by fin_cases a <;> rfl

/-- The index maps over the grid: x's and the output's block index is (t, 0), the weights' is (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Where x's block at point t sits in x. -/
theorem emb_x (t : Fin cfg0.N) (p : Fin 10000) (k : Fin 128) :
    ((cfg0.win 0).blk t).view.emb (ValueIdx.ix2 p k) = ValueIdx.ix2 (row t p) k := by
  obtain ⟨e0, e1, e2, e3, e4, e5⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weights' block is the whole array at every point. -/
theorem emb_w (t : Fin cfg0.N) (k : Fin 128) (q : Fin 128) :
    ((cfg0.win 1).blk t).view.emb (ValueIdx.ix2 k q) = ValueIdx.ix2 k q := by
  obtain ⟨e0, e1, e2, e3, e4, e5⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Where the output's block at point t sits in the output. -/
theorem emb_out (t : Fin cfg0.N) (p : Fin 10000) (q : Fin 128) :
    ((cfg0.win 2).blk t).view.emb (ValueIdx.ix2 p q) = ValueIdx.ix2 (row t p) q := by
  obtain ⟨e0, e1, e2, e3, e4, e5⟩ := idx_facts t
  funext a; apply Fin.ext
  match a with
  | ⟨0, _⟩ => show win0_2.index t (0 : Fin 2) * 10000 + 1 * p.val = t.val * 10000 + p.val; omega
  | ⟨1, _⟩ => show win0_2.index t (1 : Fin 2) * 128 + 1 * q.val = q.val; omega

/-- What grid point t writes back is block t of the whole product. -/
theorem flushed_eq (c : Dev nD) (t : Fin cfg0.N) :
    (dat0 (F := Ideal) V c).flushed 2 t = ((cfg0.win 2).blk t).view.read (Elt Ideal) (Whole.mm1 (xin V c) (win V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  obtain ⟨p, q, rfl⟩ : ∃ (p : Fin 10000) (q : Fin 128), j = ValueIdx.ix2 p q := ⟨j 0, j 1, ValueIdx.eq_ix2 j⟩
  show k0_pay1 (iblk0 V c 0 t) (iblk0 V c 1 t) (ValueIdx.ix2 p q)
    = Whole.mm1 (xin V c) (win V c) (((cfg0.win 2).blk t).view.emb (ValueIdx.ix2 p q))
  refine (pay_apply _ _ p q).trans ?_
  refine Eq.trans ?_ ((congrArg (Whole.mm1 (xin V c) (win V c)) (emb_out t p q)).trans (mm1_apply _ _ (row t p) q)).symm
  refine Finset.sum_congr rfl fun k _ => ?_
  have hx : iblk0 V c 0 t (ValueIdx.ix2 p k) = xin V c (ValueIdx.ix2 (row t p) k) :=
    congrArg (xin V c) (emb_x t p k)
  have hw : iblk0 V c 1 t (ValueIdx.ix2 k q) = win V c (ValueIdx.ix2 k q) :=
    congrArg (win V c) (emb_w t k q)
  rw [hx, hw]

/-! ## The blocks cover the array -/

/-- An index of the output is in point t's block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v5).slice (win0_2.rect t)).set ↔ _
  rw [View.set_slice_whole, Rect.mem_set_unit]
  exact Iff.rfl

/-- Row r lies in the block of point r / 10000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 10000 < cfg0.N := by show (i 0).val / 10000 < 5; omega
  obtain ⟨e0, e1, e2, e3, e4, e5⟩ := idx_facts ⟨(i 0).val / 10000, hN⟩
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val ∧ (i 1).val < win0_2.index ⟨(i 0).val / 10000, hN⟩ (1 : Fin 2) * 128 + 128
    rw [e5]; omega

/-- After the five grid points the output array holds the whole product x · W1. -/
theorem final (c : Dev nD) : (dat0 (F := Ideal) V c).arrAt 2 cfg0.N = Whole.mm1 (xin V c) (win V c) :=
  (dat0 V c).arrAt_eq_of_cover 2 (Whole.mm1 (xin V c) (win V c)) (fun t _ => flushed_eq V c t) cover

end Cert.KernelIdeal.Region0

end
-- ==== Proof.Region1.lean ====
import proofs.«424225_j3822520893440_1_alg».proof.Proof.Gen.KernelIdeal.Frame
import proofs.«424225_j3822520893440_1_alg».proof.Proof.Whole
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

/-- The zero offsets of a whole-block access, as the constant function. -/
theorem zero_off : (![0, 0] : Fin 2 → Nat) = fun _ => 0 :=
  funext fun a => match a with | ⟨0, _⟩ => rfl | ⟨1, _⟩ => rfl

/-- A row block of gathered rows, a row block of the weight column, the two whole arrays. -/
abbrev RowBlk := Vec Ideal S10000x128 .f32
abbrev ColBlk := Vec Ideal S10000x1 .f32
abbrev Rows := FVec Ideal S800000x128 .f32
abbrev Col := FVec Ideal S800000x1 .f32

/-- The body's value at row `p`, column `q` of a block: the gathered entry times the weight of its row
    (the column block stretched along the row). -/
theorem pay_apply (x0 : RowBlk) (x1 : ColBlk) (p : Fin 10000) (q : Fin 128) :
    k1_pay1 x0 x1 (ValueIdx.ix2 p q) = x0 (ValueIdx.ix2 p q) * x1 (ValueIdx.ix2 p (0 : Fin 1)) := by
  unfold k1_pay1
  refine (ValueIdx.mulf_apply _ _ _).trans ?_
  rw [shapeCast_self, shapeCast_self]
  refine congrArg (x0 (ValueIdx.ix2 p q) * ·) ?_
  refine broadcastTo_apply _ _ _ (ValueIdx.ix2 p (0 : Fin 1)) fun a => ?_
  match a with
  | ⟨0, _⟩ => rfl
  | ⟨1, _⟩ => rfl

/-- The whole-array side at an index `i`: the weight of row `i 0` times the gathered entry. -/
theorem wmul_apply (e : Col) (g : Rows) (i : S800000x128.Idx) (k : S800000x1.Idx) (hk : (k 0).val = (i 0).val) :
    Whole.wmul128 e g i = e k * g i := by
  unfold Whole.wmul128
  refine (ValueIdx.mulf_apply _ _ _).trans ?_
  refine congrArg (· * g i) ?_
  refine broadcastInDim_apply _ _ _ _ k fun a => ?_
  match a with
  | ⟨0, _⟩ => exact hk
  | ⟨1, _⟩ => exact Nat.lt_one_iff.mp (k 1).isLt

/-- One entry of one block: where the block's entries are the arrays' at `i` and at row `i 0` of the column, the body's
    value is the whole-array side's at `i`, the product of extended reals being commutative. -/
theorem entry_eq (e : Col) (g : Rows) (x0 : RowBlk) (x1 : ColBlk) (p : Fin 10000) (q : Fin 128)
    (i : S800000x128.Idx) (k : S800000x1.Idx) (h0 : x0 (ValueIdx.ix2 p q) = g i) (h1 : x1 (ValueIdx.ix2 p (0 : Fin 1)) = e k)
    (hk : (k 0).val = (i 0).val) :
    k1_pay1 x0 x1 (ValueIdx.ix2 p q) = Whole.wmul128 e g i := by
  rw [pay_apply, wmul_apply e g i k hk, h0, h1]
  exact mul_comm _ _

-- the buffer contents the region is entered from: any
variable (V : (c : Dev nD) → (b : Ref sig .tc) → Buf (Elt Ideal) ((c : Thread nD τ).loc b))

abbrev gin (c : Dev nD) : FVec Ideal S800000x128 .f32 := V c main_v6
abbrev ein (c : Dev nD) : FVec Ideal S800000x1 .f32 := V c main_v4

/-- At grid point `t` each of the three windows sits at block row `t`, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The block written back at point `t` is block `t` of the rows scaled by their weights. -/
theorem flushed_eq (c : Dev nD) (t : Fin cfg1.N) :
    (dat1 (F := Ideal) V c).flushed 2 t = ((cfg1.win 2).blk t).view.read (Elt Ideal) (Whole.wmul128 (ein V c) (gin V c)) := by
  show (cfg1.win 2).cut (grid1.coords t) ((dat1 (F := Ideal) V c).after 2 t) = _
  rw [after1_2]
  unfold out1_2
  rw [View.canon_unit_zero zero_off]
  simp only [View.ld_unit_zero (S := S10000x128) zero_off, View.ld_unit_zero (S := S10000x1) zero_off]
  obtain ⟨e0, e1, e2, e3, e4, e5⟩ := idx_facts t
  funext j
  obtain ⟨p, q, rfl⟩ : ∃ (p : Fin 10000) (q : Fin 128), j = ValueIdx.ix2 p q := ⟨j 0, j 1, ValueIdx.eq_ix2 j⟩
  refine entry_eq (ein V c) (gin V c) _ _ p q _ (((cfg1.win 1).blk t).view.emb (ValueIdx.ix2 p (0 : Fin 1))) ?_ ?_ ?_
  · show V c main_v6 (((cfg1.win 0).blk t).view.emb (ValueIdx.ix2 p q)) = V c main_v6 (((cfg1.win 2).blk t).view.emb (ValueIdx.ix2 p q))
    refine congrArg (V c main_v6) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  · rfl
  · show win1_1.index t (0 : Fin 2) * 10000 + 1 * p.val = win1_2.index t (0 : Fin 2) * 10000 + 1 * p.val
    omega

/-- The grid has eighty points. -/
theorem grid_points : cfg1.N = 80 := by decide

/-- An index of the array is in point `t`'s block iff each coordinate is in the block's range on its axis. -/
theorem mem_blk (t : Fin cfg1.N) (i : S800000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v7).slice (win1_2.rect t)).set ↔ _
  rw [View.set_slice_whole, Rect.mem_set_unit]
  exact Iff.rfl

/-- Every entry of the array is in the block some point writes back: row `r` is in the block of point `r / 10000`. -/
theorem cover (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  have hlt : (i 0).val / 10000 < cfg1.N := by rw [grid_points]; omega
  obtain ⟨-, -, -, -, e4, e5⟩ := idx_facts ⟨(i 0).val / 10000, hlt⟩
  have e4' : win1_2.index ⟨(i 0).val / 10000, hlt⟩ (0 : Fin 2) = (i 0).val / 10000 := e4
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    omega
  | ⟨1, _⟩ =>
    show win1_2.index ⟨(i 0).val / 10000, hlt⟩ (1 : Fin 2) * 128 ≤ (i 1).val
      ∧ (i 1).val < win1_2.index ⟨(i 0).val / 10000, hlt⟩ (1 : Fin 2) * 128 + 128
    omega

/-- After the eighty grid points the output array holds every gathered row scaled by its edge weight. -/
theorem final (c : Dev nD) : (dat1 (F := Ideal) V c).arrAt 2 cfg1.N = Whole.wmul128 (ein V c) (gin V c) := by
  exact (dat1 (F := Ideal) V c).arrAt_eq_of_cover 2 (Whole.wmul128 (ein V c) (gin V c)) (fun t _ => flushed_eq V c t) cover

end Cert.KernelIdeal.Region1

end
-- ==== Proof.Region2.lean ====
import proofs.«424225_j3822520893440_1_alg».proof.Proof.Gen.KernelIdeal.Frame
import proofs.«424225_j3822520893440_1_alg».proof.Proof.Whole
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)
open Idealize.ShloMosaic.ValueIdx

-- the buffer contents the region is entered from: any
variable (V : (c : Dev nD) → (b : Ref sig .tc) → Buf (Elt Ideal) ((c : Thread nD τ).loc b))

abbrev ain (c : Dev nD) : FVec Ideal S50000x128 .f32 := V c main_v10
abbrev bin (c : Dev nD) : FVec Ideal S1x128 .f32 := V c main_v11
abbrev win (c : Dev nD) : FVec Ideal S128x64 .f32 := V c main_arg5

/-! ## The block's product at an entry

A [10000,128] by [128,64] product contracts the left operand's columns with the right operand's rows: at output
entry (p, q) and contraction index k the left operand is read at (p, k) and the right at (k, q). -/

theorem lhs_blk_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_blk_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_blk_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_blk_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block's product into a zero accumulator, at entry (p, q): the sum over k of l[p,k] · r[k,q]. -/
theorem blk_mm_apply (l : FVec Ideal S10000x128 .bf16) (r : FVec Ideal S128x64 .bf16) (p : Fin 10000) (q : Fin 64) :
    matmul (F := Ideal) dot_S10000x128_S128x64_S10000x64_1_0_0_1_n_n none l r (constant (F := Ideal) S10000x64 .f32 0x00000000#32) (ix2 p q)
      = ∑ k : Fin 128, l (ix2 p k) * r (ix2 k q) := by
  refine (Ideal.matmul_constant_zero_apply dot_S10000x128_S128x64_S10000x64_1_0_0_1_n_n none l r (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- The zero word of f32 denotes the extended real 0. -/
theorem zero_word : Scalar.ofBits (F := Ideal) .f32 0x00000000#32 = 0 := Ideal.ofBits_zero_f32

/-- Entry (p, q) of max(x0 + x1, 0) · x2 for one row block x0, the bias row x1 and the weights x2:
    Σ_k max(x0[p,k] + x1[0,k], 0) · x2[k,q]. -/
def blockSum (x0 : Vec Ideal S10000x128 .f32) (x1 : Vec Ideal S1x128 .f32) (x2 : Vec Ideal S128x64 .f32) (p : Fin 10000) (q : Fin 64) : EReal :=
  ∑ k : Fin 128, max (x0 (ix2 p k) + x1 (ix2 (0 : Fin 1) k)) 0 * x2 (ix2 k q)

/-- The body's arithmetic at an entry: the bias row is read at row 0 whatever the block's row, the scalar zero is 0
    at every entry, the change of float format is the identity on extended reals, and the product into the zero
    accumulator is the plain sum. -/
theorem pay_apply (x0 : Vec Ideal S10000x128 .f32) (x1 : Vec Ideal S1x128 .f32) (x2 : Vec Ideal S128x64 .f32) (p : Fin 10000) (q : Fin 64) :
    k2_pay1 (F := Ideal) x0 x1 x2 (ix2 p q) = blockSum x0 x1 x2 p q := by
  unfold k2_pay1 blockSum
  refine (blk_mm_apply _ _ p q).trans ?_
  refine Finset.sum_congr rfl fun k _ => ?_
  show max (shapeCast S10000x128 x0 shapeCasts_S10000x128_S10000x128 (ix2 p k)
      + broadcastTo S10000x128 (shapeCast S1x128 x1 shapeCasts_S1x128_S1x128) broadcasts_S1x128_S10000x128 (ix2 p k))
      (Scalar.ofBits (F := Ideal) .f32 0x00000000#32) * x2 (ix2 k q) = _
  rw [shapeCast_self, shapeCast_self, zero_word]
  exact congrArg (fun z => max (x0 (ix2 p k) + z) 0 * x2 (ix2 k q)) (broadcastTo_1b_ab_apply x1 broadcasts_S1x128_S10000x128 p k)

/-! ## The whole array's product at an entry -/

theorem lhs_whole_0 (i : S50000x64.Idx) (q : Whole.dd2.contr.Idx) :
    (Whole.dd2.lhsIdx i q 0).val = (i 0).val := by
  unfold DotDims.lhsIdx
  rw [dif_neg (show ¬(0 : Fin S50000x128.rank) ∈ Whole.dd2.lhsBatch by decide), dif_pos (show (0 : Fin S50000x128.rank) ∈ Whole.dd2.lhsNonContracting by decide)]
  rfl
theorem lhs_whole_1 (i : S50000x64.Idx) (q : Whole.dd2.contr.Idx) :
    (Whole.dd2.lhsIdx i q 1).val = (q ⟨0, by decide⟩).val :=
  Whole.dd2.lhsIdx_val_of_single rfl i q
theorem rhs_whole_0 (i : S50000x64.Idx) (q : Whole.dd2.contr.Idx) :
    (Whole.dd2.rhsIdx i q 0).val = (q ⟨0, by decide⟩).val :=
  Whole.dd2.rhsIdx_val_of_single rfl i q
theorem rhs_whole_1 (i : S50000x64.Idx) (q : Whole.dd2.contr.Idx) :
    (Whole.dd2.rhsIdx i q 1).val = (i 1).val := by
  unfold DotDims.rhsIdx
  rw [dif_neg (show ¬(1 : Fin S128x64.rank) ∈ Whole.dd2.rhsBatch by decide), dif_pos (show (1 : Fin S128x64.rank) ∈ Whole.dd2.rhsNonContracting by decide)]
  rfl

/-- Entry (r, q) of max(a + b, 0) · w over the whole arrays: Σ_k max(a[r,k] + b[0,k], 0) · w[k,q]. -/
def wholeSum (a : FVec Ideal S50000x128 .f32) (b : FVec Ideal S1x128 .f32) (w : FVec Ideal S128x64 .f32) (r : Fin 50000) (q : Fin 64) : EReal :=
  ∑ k : Fin 128, max (a (ix2 r k) + b (ix2 (0 : Fin 1) k)) 0 * w (ix2 k q)

/-- The bias row spread down the 50000 rows reads, at (r, k), the row's entry k. -/
theorem bias_apply (b : FVec Ideal S1x128 .f32) (r : Fin 50000) (k : Fin 128) :
    broadcastInDim S50000x128 ![0, 1] Whole.bc_b128 b (ix2 r k) = b (ix2 (0 : Fin 1) k) :=
  broadcastInDim_apply ![0, 1] Whole.bc_b128 b (ix2 r k) (ix2 (0 : Fin 1) k) fun a => by
    match a with
    | ⟨0, _⟩ => rfl
    | ⟨1, _⟩ => rfl

/-- The scalar zero spread over the array reads 0 at every entry. -/
theorem zeros_apply (j : S50000x128.Idx) :
    broadcastInDim S50000x128 ![] bcast_S_S50000x128 (constant (F := Ideal) S_ .f32 0x00000000#32) j = 0 :=
  (broadcastInDim_apply ![] bcast_S_S50000x128 (constant (F := Ideal) S_ .f32 0x00000000#32) j ix0 fun a => a.elim0).trans
    Ideal.ofBits_zero_f32

/-- The whole-array function at an entry. -/
theorem whole_apply (a : FVec Ideal S50000x128 .f32) (b : FVec Ideal S1x128 .f32) (w : FVec Ideal S128x64 .f32) (r : Fin 50000) (q : Fin 64) :
    Whole.brmm128 (F := Ideal) a b w (ix2 r q) = wholeSum a b w r q := by
  unfold Whole.brmm128 wholeSum
  simp only [Host.dotGeneral]
  rw [Ideal.dotGeneral_apply, ← Equiv.sum_comp (ValueIdx.contrEquiv1 Whole.dd2 128 rfl rfl).symm]
  refine Finset.sum_congr rfl fun k _ => ?_
  have hk := ValueIdx.contrEquiv1_symm_val Whole.dd2 128 rfl rfl k
  have el : Whole.dd2.lhsIdx (ix2 r q) ((ValueIdx.contrEquiv1 Whole.dd2 128 rfl rfl).symm k) = ix2 r k := funext fun a => Fin.ext (by
    match a with
    | ⟨0, _⟩ => exact lhs_whole_0 _ _
    | ⟨1, _⟩ => exact (lhs_whole_1 _ _).trans hk)
  have er : Whole.dd2.rhsIdx (ix2 r q) ((ValueIdx.contrEquiv1 Whole.dd2 128 rfl rfl).symm k) = ix2 k q := funext fun a => Fin.ext (by
    match a with
    | ⟨0, _⟩ => exact (rhs_whole_0 _ _).trans hk
    | ⟨1, _⟩ => exact rhs_whole_1 _ _)
  rw [el, er]
  show max (a (ix2 r k) + broadcastInDim S50000x128 ![0, 1] Whole.bc_b128 b (ix2 r k))
      (broadcastInDim S50000x128 ![] bcast_S_S50000x128 (constant (F := Ideal) S_ .f32 0x00000000#32) (ix2 r k)) * w (ix2 k q) = _
  rw [bias_apply, zeros_apply]

/-! ## The blocks at a grid point -/

theorem hz : (![0, 0] : Fin 2 → Nat) = fun _ => 0 := funext fun a => by fin_cases a <;> rfl

/-- The index maps over the five grid points: the input rows' and the output's block index is (t, 0); the bias row
    and the weights are one block, (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input rows' block at point t is rows t·10000 … t·10000 + 9999 of the array. -/
theorem rows_apply (c : Dev nD) (t : Fin cfg2.N) (p : Fin 10000) (k : Fin 128) (h : t.val * 10000 + p.val < 50000) :
    (iblk2 V c 0 t : Vec Ideal S10000x128 .f32) (ix2 p k) = ain V c (ix2 (⟨t.val * 10000 + p.val, h⟩ : Fin 50000) k) := by
  obtain ⟨e0, e1, -⟩ := idx_facts t
  show V c main_v10 (((cfg2.win 0).blk t).view.emb (ix2 p k)) = V c main_v10 _
  refine congrArg (V c main_v10) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 128 + 1 * k.val = k.val; rw [e1]; omega

/-- The bias window's block is the whole bias row at every point. -/
theorem bias_blk_apply (c : Dev nD) (t : Fin cfg2.N) (k : Fin 128) :
    (iblk2 V c 1 t : Vec Ideal S1x128 .f32) (ix2 (0 : Fin 1) k) = bin V c (ix2 (0 : Fin 1) k) := by
  obtain ⟨-, -, e0, e1, -⟩ := idx_facts t
  show V c main_v11 (((cfg2.win 1).blk t).view.emb (ix2 (0 : Fin 1) k)) = V c main_v11 _
  refine congrArg (V c main_v11) (funext fun a => Fin.ext ?_)
  match a with
  | ⟨0, _⟩ => show win2_1.index t (0 : Fin 2) * 1 + 1 * 0 = 0; rw [e0]
  | ⟨1, _⟩ => show win2_1.index t (1 : Fin 2) * 128 + 1 * k.val = k.val; rw [e1]; omega

/-- The weights' block is the whole weight array at every point. -/
theorem w_blk_apply (c : Dev nD) (t : Fin cfg2.N) (k : Fin 128) (q : Fin 64) :
    (iblk2 V c 2 t : Vec Ideal S128x64 .f32) (ix2 k q) = win V c (ix2 k q) := by
  obtain ⟨-, -, -, -, e0, e1, -⟩ := idx_facts t
  show V c main_arg5 (((cfg2.win 2).blk t).view.emb (ix2 k q)) = V c main_arg5 _
  refine congrArg (V c main_arg5) (funext fun a => Fin.ext ?_)
  match a with
  | ⟨0, _⟩ => show win2_2.index t (0 : Fin 2) * 128 + 1 * k.val = k.val; rw [e0]; omega
  | ⟨1, _⟩ => show win2_2.index t (1 : Fin 2) * 64 + 1 * q.val = q.val; rw [e1]; omega

/-- At point t the body's result at (p, q) is the whole product at row t·10000 + p: the two sums agree term by term. -/
theorem point_eq (c : Dev nD) (t : Fin cfg2.N) (p : Fin 10000) (q : Fin 64) (h : t.val * 10000 + p.val < 50000) :
    k2_pay1 (F := Ideal) (iblk2 V c 0 t) (iblk2 V c 1 t) (iblk2 V c 2 t) (ix2 p q)
      = Whole.brmm128 (F := Ideal) (ain V c) (bin V c) (win V c) (ix2 (⟨t.val * 10000 + p.val, h⟩ : Fin 50000) q) := by
  refine (pay_apply _ _ _ p q).trans ((Finset.sum_congr rfl fun k _ => ?_).trans (whole_apply _ _ _ _ q).symm)
  rw [rows_apply V c t p k h, bias_blk_apply V c t k, w_blk_apply V c t k q]

/-! ## From the blocks to the array -/

/-- What point t writes back is its block of the whole product. -/
theorem flushed_eq (c : Dev nD) (t : Fin cfg2.N) :
    (dat2 (F := Ideal) V c).flushed 3 t
      = ((cfg2.win 3).blk t).view.read (Elt Ideal) (Whole.brmm128 (F := Ideal) (ain V c) (bin V c) (win V c)) := by
  show (cfg2.win 3).cut (grid2.coords t) ((dat2 V c).after 3 t) = _
  rw [after2_3]
  unfold out2_3
  rw [View.canon_unit_zero hz]
  simp only [View.ld_unit_zero (S := S10000x128) hz, View.ld_unit_zero (S := S1x128) hz, View.ld_unit_zero (S := S128x64) hz]
  obtain ⟨-, -, -, -, -, -, e0, e1⟩ := idx_facts t
  have ht : t.val < 5 := lt_of_lt_of_eq t.isLt N_2
  funext j
  have hj0 : (j 0).val < 10000 := (j 0).isLt
  have hj1 : (j 1).val < 64 := (j 1).isLt
  have hr : t.val * 10000 + (j 0).val < 50000 := by omega
  have hx : (cfg2.win 3).xinj (grid2.coords t) j = ix2 (⟨(j 0).val, hj0⟩ : Fin 10000) (⟨(j 1).val, hj1⟩ : Fin 64) :=
    funext fun a => match a with | ⟨0, _⟩ => rfl | ⟨1, _⟩ => rfl
  have he : ((cfg2.win 3).blk t).view.emb j = ix2 (⟨t.val * 10000 + (j 0).val, hr⟩ : Fin 50000) (⟨(j 1).val, hj1⟩ : Fin 64) :=
    funext fun a => Fin.ext (by
      match a with
      | ⟨0, _⟩ => show win2_3.index t (0 : Fin 2) * 10000 + 1 * (j 0).val = t.val * 10000 + (j 0).val; rw [e0]; omega
      | ⟨1, _⟩ => show win2_3.index t (1 : Fin 2) * 64 + 1 * (j 1).val = (j 1).val; rw [e1]; omega)
  show k2_pay1 (F := Ideal) (iblk2 V c 0 t) (iblk2 V c 1 t) (iblk2 V c 2 t) ((cfg2.win 3).xinj (grid2.coords t) j)
    = Whole.brmm128 (F := Ideal) (ain V c) (bin V c) (win V c) (((cfg2.win 3).blk t).view.emb j)
  rw [hx, he]
  exact point_eq V c t _ _ hr

/-- An index of the output array is in point t's block iff each coordinate is in the block's range on its axis. -/
theorem mem_blk (t : Fin cfg2.N) (i : S50000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v12).slice (win2_3.rect t)).set ↔ _
  rw [View.set_slice_whole, Rect.mem_set_unit]
  exact Iff.rfl

/-- Row r of the output is in the block of point r / 10000, and every point writes back. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 5 := N_2
  let t : Fin cfg2.N := ⟨(i 0).val / 10000, by rw [hN]; omega⟩
  obtain ⟨-, -, -, -, -, -, e0, e1⟩ := idx_facts t
  have e0' : win2_3.index t (0 : Fin 2) = (i 0).val / 10000 := e0
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; rw [e0']; omega
  | ⟨1, _⟩ => show win2_3.index t (1 : Fin 2) * 64 ≤ (i 1).val ∧ (i 1).val < win2_3.index t (1 : Fin 2) * 64 + 64; rw [e1]; omega

/-- After the five grid points the output array holds max(a + b, 0) · W2, whole. -/
theorem final (c : Dev nD) : (dat2 (F := Ideal) V c).arrAt 3 cfg2.N = Whole.brmm128 (ain V c) (bin V c) (win V c) := by
  exact (dat2 (F := Ideal) V c).arrAt_eq_of_cover 3 (Whole.brmm128 (F := Ideal) (ain V c) (bin V c) (win V c))
    (fun t _ => flushed_eq V c t) cover

end Cert.KernelIdeal.Region2

end
-- ==== Proof.Region3.lean ====
import proofs.«424225_j3822520893440_1_alg».proof.Proof.Gen.KernelIdeal.Frame
import proofs.«424225_j3822520893440_1_alg».proof.Proof.Whole
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat)

/-- The zero offsets of a whole-block access, as the constant function. -/
theorem zero_off : (![0, 0] : Fin 2 → Nat) = fun _ => 0 :=
  funext fun a => match a with | ⟨0, _⟩ => rfl | ⟨1, _⟩ => rfl

/-- A row block of gathered rows, a row block of the weight column, the two whole arrays. -/
abbrev RowBlk := Vec Ideal S10000x64 .f32
abbrev ColBlk := Vec Ideal S10000x1 .f32
abbrev Rows := FVec Ideal S800000x64 .f32
abbrev Col := FVec Ideal S800000x1 .f32

/-- The body's value at row `p`, column `q` of a block: the gathered entry times the weight of its row
    (the column block stretched along the row). -/
theorem pay_apply (x0 : RowBlk) (x1 : ColBlk) (p : Fin 10000) (q : Fin 64) :
    k3_pay1 x0 x1 (ValueIdx.ix2 p q) = x0 (ValueIdx.ix2 p q) * x1 (ValueIdx.ix2 p (0 : Fin 1)) := by
  unfold k3_pay1
  refine (ValueIdx.mulf_apply _ _ _).trans ?_
  rw [shapeCast_self, shapeCast_self]
  refine congrArg (x0 (ValueIdx.ix2 p q) * ·) ?_
  refine broadcastTo_apply _ _ _ (ValueIdx.ix2 p (0 : Fin 1)) fun a => ?_
  match a with
  | ⟨0, _⟩ => rfl
  | ⟨1, _⟩ => rfl

/-- The whole-array side at an index `i`: the weight of row `i 0` times the gathered entry. -/
theorem wmul_apply (e : Col) (g : Rows) (i : S800000x64.Idx) (k : S800000x1.Idx) (hk : (k 0).val = (i 0).val) :
    Whole.wmul64 e g i = e k * g i := by
  unfold Whole.wmul64
  refine (ValueIdx.mulf_apply _ _ _).trans ?_
  refine congrArg (· * g i) ?_
  refine broadcastInDim_apply _ _ _ _ k fun a => ?_
  match a with
  | ⟨0, _⟩ => exact hk
  | ⟨1, _⟩ => exact Nat.lt_one_iff.mp (k 1).isLt

/-- One entry of one block: where the block's entries are the arrays' at `i` and at row `i 0` of the column, the body's
    value is the whole-array side's at `i`, the product of extended reals being commutative. -/
theorem entry_eq (e : Col) (g : Rows) (x0 : RowBlk) (x1 : ColBlk) (p : Fin 10000) (q : Fin 64)
    (i : S800000x64.Idx) (k : S800000x1.Idx) (h0 : x0 (ValueIdx.ix2 p q) = g i) (h1 : x1 (ValueIdx.ix2 p (0 : Fin 1)) = e k)
    (hk : (k 0).val = (i 0).val) :
    k3_pay1 x0 x1 (ValueIdx.ix2 p q) = Whole.wmul64 e g i := by
  rw [pay_apply, wmul_apply e g i k hk, h0, h1]
  exact mul_comm _ _

-- the buffer contents the region is entered from: any
variable (V : (c : Dev nD) → (b : Ref sig .tc) → Buf (Elt Ideal) ((c : Thread nD τ).loc b))

abbrev gin (c : Dev nD) : FVec Ideal S800000x64 .f32 := V c main_v13
abbrev ein (c : Dev nD) : FVec Ideal S800000x1 .f32 := V c main_v4

/-- At grid point `t` each of the three windows sits at block row `t`, block column 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The block written back at point `t` is block `t` of the rows scaled by their weights. -/
theorem flushed_eq (c : Dev nD) (t : Fin cfg3.N) :
    (dat3 (F := Ideal) V c).flushed 2 t = ((cfg3.win 2).blk t).view.read (Elt Ideal) (Whole.wmul64 (ein V c) (gin V c)) := by
  show (cfg3.win 2).cut (grid3.coords t) ((dat3 (F := Ideal) V c).after 2 t) = _
  rw [after3_2]
  unfold out3_2
  rw [View.canon_unit_zero zero_off]
  simp only [View.ld_unit_zero (S := S10000x64) zero_off, View.ld_unit_zero (S := S10000x1) zero_off]
  obtain ⟨e0, e1, e2, e3, e4, e5⟩ := idx_facts t
  funext j
  obtain ⟨p, q, rfl⟩ : ∃ (p : Fin 10000) (q : Fin 64), j = ValueIdx.ix2 p q := ⟨j 0, j 1, ValueIdx.eq_ix2 j⟩
  refine entry_eq (ein V c) (gin V c) _ _ p q _ (((cfg3.win 1).blk t).view.emb (ValueIdx.ix2 p (0 : Fin 1))) ?_ ?_ ?_
  · show V c main_v13 (((cfg3.win 0).blk t).view.emb (ValueIdx.ix2 p q)) = V c main_v13 (((cfg3.win 2).blk t).view.emb (ValueIdx.ix2 p q))
    refine congrArg (V c main_v13) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  · rfl
  · show win3_1.index t (0 : Fin 2) * 10000 + 1 * p.val = win3_2.index t (0 : Fin 2) * 10000 + 1 * p.val
    omega

/-- The grid has eighty points. -/
theorem grid_points : cfg3.N = 80 := by decide

/-- An index of the array is in point `t`'s block iff each coordinate is in the block's range on its axis. -/
theorem mem_blk (t : Fin cfg3.N) (i : S800000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v14).slice (win3_2.rect t)).set ↔ _
  rw [View.set_slice_whole, Rect.mem_set_unit]
  exact Iff.rfl

/-- Every entry of the array is in the block some point writes back: row `r` is in the block of point `r / 10000`. -/
theorem cover (i : S800000x64.Idx) :
    ∃ t : Fin cfg3.N, (cfg3.win 2).flush t = true ∧ i ∈ ((cfg3.win 2).blk t).view.set := by
  have hi0 : (i 0).val < 800000 := (i 0).isLt
  have hi1 : (i 1).val < 64 := (i 1).isLt
  have hlt : (i 0).val / 10000 < cfg3.N := by rw [grid_points]; omega
  obtain ⟨-, -, -, -, e4, e5⟩ := idx_facts ⟨(i 0).val / 10000, hlt⟩
  have e4' : win3_2.index ⟨(i 0).val / 10000, hlt⟩ (0 : Fin 2) = (i 0).val / 10000 := e4
  refine ⟨⟨(i 0).val / 10000, hlt⟩, flush3_2 _, ?_⟩
  rw [mem_blk]
  intro a
  match a with
  | ⟨0, _⟩ =>
    show win3_2.index ⟨(i 0).val / 10000, hlt⟩ (0 : Fin 2) * 10000 ≤ (i 0).val
      ∧ (i 0).val < win3_2.index ⟨(i 0).val / 10000, hlt⟩ (0 : Fin 2) * 10000 + 10000
    omega
  | ⟨1, _⟩ =>
    show win3_2.index ⟨(i 0).val / 10000, hlt⟩ (1 : Fin 2) * 64 ≤ (i 1).val
      ∧ (i 1).val < win3_2.index ⟨(i 0).val / 10000, hlt⟩ (1 : Fin 2) * 64 + 64
    omega

/-- After the eighty grid points the output array holds every gathered row scaled by its edge weight. -/
theorem final (c : Dev nD) : (dat3 (F := Ideal) V c).arrAt 2 cfg3.N = Whole.wmul64 (ein V c) (gin V c) := by
  exact (dat3 (F := Ideal) V c).arrAt_eq_of_cover 2 (Whole.wmul64 (ein V c) (gin V c)) (fun t _ => flushed_eq V c t) cover

end Cert.KernelIdeal.Region3

end
-- ==== Proof.Region4.lean ====
import proofs.«424225_j3822520893440_1_alg».proof.Proof.Gen.KernelIdeal.Frame
import proofs.«424225_j3822520893440_1_alg».proof.Proof.Whole
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.SL.Sem
open Idealize.ShloMosaic.Pipeline (Dat)

-- the buffer contents the region is entered from: any
variable (V : (c : Dev nD) → (b : Ref sig .tc) → Buf (Elt Ideal) ((c : Thread nD τ).loc b))

abbrev ain (c : Dev nD) : FVec Ideal S50000x64 .f32 := V c main_v17
abbrev bin (c : Dev nD) : FVec Ideal S1x64 .f32 := V c main_v18
abbrev win (c : Dev nD) : FVec Ideal S64x2 .f32 := V c main_arg7
abbrev lin (c : Dev nD) : FVec Ideal S1x2 .f32 := V c main_v19

/-! ## The block product at an index

The operand indices of a [n,64] by [64,2] product at output index (r, j) and contraction coordinate k are (r, k) and
(k, j): one lemma per operand and axis. -/

theorem lhs_blk_0 (i : S10000x2.Idx) (q : dot_S10000x64_S64x2_S10000x2_1_0_0_1_n_n.contr.Idx) :
    (dot_S10000x64_S64x2_S10000x2_1_0_0_1_n_n.lhsIdx i q 0).val = (i 0).val := by
  unfold DotDims.lhsIdx
  rw [dif_neg (show ¬(0 : Fin S10000x64.rank) ∈ dot_S10000x64_S64x2_S10000x2_1_0_0_1_n_n.lhsBatch by decide), dif_pos (show (0 : Fin S10000x64.rank) ∈ dot_S10000x64_S64x2_S10000x2_1_0_0_1_n_n.lhsNonContracting by decide)]
  rfl
theorem lhs_blk_1 (i : S10000x2.Idx) (q : dot_S10000x64_S64x2_S10000x2_1_0_0_1_n_n.contr.Idx) :
    (dot_S10000x64_S64x2_S10000x2_1_0_0_1_n_n.lhsIdx i q 1).val = (q ⟨0, by decide⟩).val :=
  dot_S10000x64_S64x2_S10000x2_1_0_0_1_n_n.lhsIdx_val_of_single rfl i q
theorem rhs_blk_0 (i : S10000x2.Idx) (q : dot_S10000x64_S64x2_S10000x2_1_0_0_1_n_n.contr.Idx) :
    (dot_S10000x64_S64x2_S10000x2_1_0_0_1_n_n.rhsIdx i q 0).val = (q ⟨0, by decide⟩).val :=
  dot_S10000x64_S64x2_S10000x2_1_0_0_1_n_n.rhsIdx_val_of_single rfl i q
theorem rhs_blk_1 (i : S10000x2.Idx) (q : dot_S10000x64_S64x2_S10000x2_1_0_0_1_n_n.contr.Idx) :
    (dot_S10000x64_S64x2_S10000x2_1_0_0_1_n_n.rhsIdx i q 1).val = (i 1).val := by
  unfold DotDims.rhsIdx
  rw [dif_neg (show ¬(1 : Fin S64x2.rank) ∈ dot_S10000x64_S64x2_S10000x2_1_0_0_1_n_n.rhsBatch by decide), dif_pos (show (1 : Fin S64x2.rank) ∈ dot_S10000x64_S64x2_S10000x2_1_0_0_1_n_n.rhsNonContracting by decide)]
  rfl

/-- A block's product into the zero accumulator, at row p and column j: the sum over the 64 contracted coordinates. -/
theorem blockProduct_apply (x : FVec Ideal S10000x64 .bf16) (w : FVec Ideal S64x2 .bf16) (p : Fin 10000) (j : Fin 2) :
    matmul dot_S10000x64_S64x2_S10000x2_1_0_0_1_n_n none x w (constant (F := Ideal) S10000x2 .f32 0x00000000#32) (ValueIdx.ix2 p j)
      = ∑ k : Fin 64, x (ValueIdx.ix2 p k) * w (ValueIdx.ix2 k j) := by
  simp only [matmul]
  rw [Ideal.matmul_constant_zero_apply, ← Equiv.sum_comp (ValueIdx.contrEquiv1 dot_S10000x64_S64x2_S10000x2_1_0_0_1_n_n 64 rfl rfl).symm]
  refine Finset.sum_congr rfl fun k _ => ?_
  have hk := ValueIdx.contrEquiv1_symm_val dot_S10000x64_S64x2_S10000x2_1_0_0_1_n_n 64 rfl rfl k
  have el : dot_S10000x64_S64x2_S10000x2_1_0_0_1_n_n.lhsIdx (ValueIdx.ix2 p j) ((ValueIdx.contrEquiv1 dot_S10000x64_S64x2_S10000x2_1_0_0_1_n_n 64 rfl rfl).symm k) = ValueIdx.ix2 p k := funext fun a => Fin.ext (by
    match a with
    | ⟨0, _⟩ => exact lhs_blk_0 _ _
    | ⟨1, _⟩ => exact (lhs_blk_1 _ _).trans hk)
  have er : dot_S10000x64_S64x2_S10000x2_1_0_0_1_n_n.rhsIdx (ValueIdx.ix2 p j) ((ValueIdx.contrEquiv1 dot_S10000x64_S64x2_S10000x2_1_0_0_1_n_n 64 rfl rfl).symm k) = ValueIdx.ix2 k j := funext fun a => Fin.ext (by
    match a with
    | ⟨0, _⟩ => exact (rhs_blk_0 _ _).trans hk
    | ⟨1, _⟩ => exact rhs_blk_1 _ _)
  rw [el, er]

/-! ## The whole-array product at an index -/

theorem lhs_whole_0 (i : S50000x2.Idx) (q : Whole.dd3.contr.Idx) :
    (Whole.dd3.lhsIdx i q 0).val = (i 0).val := by
  unfold DotDims.lhsIdx
  rw [dif_neg (show ¬(0 : Fin S50000x64.rank) ∈ Whole.dd3.lhsBatch by decide), dif_pos (show (0 : Fin S50000x64.rank) ∈ Whole.dd3.lhsNonContracting by decide)]
  rfl
theorem lhs_whole_1 (i : S50000x2.Idx) (q : Whole.dd3.contr.Idx) :
    (Whole.dd3.lhsIdx i q 1).val = (q ⟨0, by decide⟩).val :=
  Whole.dd3.lhsIdx_val_of_single rfl i q
theorem rhs_whole_0 (i : S50000x2.Idx) (q : Whole.dd3.contr.Idx) :
    (Whole.dd3.rhsIdx i q 0).val = (q ⟨0, by decide⟩).val :=
  Whole.dd3.rhsIdx_val_of_single rfl i q
theorem rhs_whole_1 (i : S50000x2.Idx) (q : Whole.dd3.contr.Idx) :
    (Whole.dd3.rhsIdx i q 1).val = (i 1).val := by
  unfold DotDims.rhsIdx
  rw [dif_neg (show ¬(1 : Fin S64x2.rank) ∈ Whole.dd3.rhsBatch by decide), dif_pos (show (1 : Fin S64x2.rank) ∈ Whole.dd3.rhsNonContracting by decide)]
  rfl

/-- The whole array's product at row r and column j: the same sum over the 64 contracted coordinates. -/
theorem wholeProduct_apply (x : FVec Ideal S50000x64 .f32) (w : FVec Ideal S64x2 .f32) (r : Fin 50000) (j : Fin 2) :
    Host.dotGeneral (F := Ideal) Whole.dd3 none x w (ValueIdx.ix2 r j)
      = ∑ k : Fin 64, x (ValueIdx.ix2 r k) * w (ValueIdx.ix2 k j) := by
  simp only [Host.dotGeneral]
  rw [Ideal.dotGeneral_apply, ← Equiv.sum_comp (ValueIdx.contrEquiv1 Whole.dd3 64 rfl rfl).symm]
  refine Finset.sum_congr rfl fun k _ => ?_
  have hk := ValueIdx.contrEquiv1_symm_val Whole.dd3 64 rfl rfl k
  have el : Whole.dd3.lhsIdx (ValueIdx.ix2 r j) ((ValueIdx.contrEquiv1 Whole.dd3 64 rfl rfl).symm k) = ValueIdx.ix2 r k := funext fun a => Fin.ext (by
    match a with
    | ⟨0, _⟩ => exact lhs_whole_0 _ _
    | ⟨1, _⟩ => exact (lhs_whole_1 _ _).trans hk)
  have er : Whole.dd3.rhsIdx (ValueIdx.ix2 r j) ((ValueIdx.contrEquiv1 Whole.dd3 64 rfl rfl).symm k) = ValueIdx.ix2 k j := funext fun a => Fin.ext (by
    match a with
    | ⟨0, _⟩ => exact (rhs_whole_0 _ _).trans hk
    | ⟨1, _⟩ => exact rhs_whole_1 _ _)
  rw [el, er]

/-! ## The two sides at an index -/

/-- The kernel's result block at row p and column j, from its four input blocks. -/
theorem payload_apply (x0 : Vec Ideal S10000x64 .f32) (x1 : Vec Ideal S1x64 .f32) (x2 : Vec Ideal S64x2 .f32) (x3 : Vec Ideal S1x2 .f32)
    (p : Fin 10000) (j : Fin 2) :
    k4_pay1 (F := Ideal) x0 x1 x2 x3 (ValueIdx.ix2 p j)
      = (∑ k : Fin 64, max (x0 (ValueIdx.ix2 p k) + x1 (ValueIdx.ix2 (0 : Fin 1) k)) (Ideal.ofBits .f32 0x00000000#32) * x2 (ValueIdx.ix2 k j))
        + x3 (ValueIdx.ix2 (0 : Fin 1) j) := by
  unfold k4_pay1
  simp only [shapeCast_self]
  rw [ValueIdx.addf_apply]
  refine congrArg₂ (· + ·) ?_ ?_
  · refine (blockProduct_apply _ _ p j).trans ?_
    refine Finset.sum_congr rfl fun k _ => ?_
    rw [ValueIdx.truncf_apply, ValueIdx.truncf_apply, ValueIdx.maximumf_apply, ValueIdx.addf_apply]
    refine congrArg₂ (· * ·) (congrArg₂ max (congrArg₂ (· + ·) rfl ?_) rfl) rfl
    refine broadcastTo_apply x1 broadcasts_S1x64_S10000x64 (ValueIdx.ix2 p k) (ValueIdx.ix2 (0 : Fin 1) k) fun a => ?_
    match a with
    | ⟨0, _⟩ => rfl
    | ⟨1, _⟩ => rfl
  · refine broadcastTo_apply x3 broadcasts_S1x2_S10000x2 (ValueIdx.ix2 p j) (ValueIdx.ix2 (0 : Fin 1) j) fun a => ?_
    match a with
    | ⟨0, _⟩ => rfl
    | ⟨1, _⟩ => rfl

/-- The whole-array function at row r and column j. -/
theorem whole_apply (a : FVec Ideal S50000x64 .f32) (b : FVec Ideal S1x64 .f32) (w : FVec Ideal S64x2 .f32) (l : FVec Ideal S1x2 .f32)
    (r : Fin 50000) (j : Fin 2) :
    Whole.brmmb64 (F := Ideal) a b w l (ValueIdx.ix2 r j)
      = (∑ k : Fin 64, max (a (ValueIdx.ix2 r k) + b (ValueIdx.ix2 (0 : Fin 1) k)) (Ideal.ofBits .f32 0x00000000#32) * w (ValueIdx.ix2 k j))
        + l (ValueIdx.ix2 (0 : Fin 1) j) := by
  unfold Whole.brmmb64
  rw [ValueIdx.addf_apply]
  refine congrArg₂ (· + ·) ?_ ?_
  · refine (wholeProduct_apply _ _ r j).trans ?_
    refine Finset.sum_congr rfl fun k _ => ?_
    rw [ValueIdx.maximumf_apply, ValueIdx.addf_apply]
    refine congrArg₂ (· * ·) (congrArg₂ max (congrArg₂ (· + ·) rfl ?_) ?_) rfl
    · refine broadcastInDim_apply ![0, 1] Whole.bc_b64 b (ValueIdx.ix2 r k) (ValueIdx.ix2 (0 : Fin 1) k) fun a => ?_
      match a with
      | ⟨0, _⟩ => rfl
      | ⟨1, _⟩ => rfl
    · exact broadcastInDim_apply ![] bcast_S_S50000x64 (constant (F := Ideal) S_ .f32 0x00000000#32) (ValueIdx.ix2 r k) ValueIdx.ix0 fun a => a.elim0
  · refine broadcastInDim_apply ![0, 1] Whole.bc_b2 l (ValueIdx.ix2 r j) (ValueIdx.ix2 (0 : Fin 1) j) fun a => ?_
    match a with
    | ⟨0, _⟩ => rfl
    | ⟨1, _⟩ => rfl

/-! ## From blocks to the array -/

theorem zero_offsets : (![0, 0] : Fin 2 → Nat) = fun _ => 0 := funext fun a => by fin_cases a <;> rfl

/-- The index maps over the five grid points: the row-blocked windows sit at block (t, 0), the others at block (0, 0). -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- With equal bias, weight and output-bias blocks, and row p of the input block equal to row t·10000 + p of the array,
    the block's result at (p, j) is the whole-array function at (t·10000 + p, j). -/
theorem point_eq (A : FVec Ideal S50000x64 .f32) (B : FVec Ideal S1x64 .f32) (W : FVec Ideal S64x2 .f32) (L : FVec Ideal S1x2 .f32)
    (x0 : Vec Ideal S10000x64 .f32) (t : Nat)
    (h0 : ∀ (p : Fin 10000) (k : Fin 64) (r : Fin 50000), r.val = t * 10000 + p.val → x0 (ValueIdx.ix2 p k) = A (ValueIdx.ix2 r k))
    (y : S10000x2.Idx) (i : S50000x2.Idx) (hi0 : (i 0).val = t * 10000 + (y 0).val) (hi1 : (i 1).val = (y 1).val) :
    k4_pay1 (F := Ideal) x0 B W L y = Whole.brmmb64 (F := Ideal) A B W L i := by
  obtain ⟨p, j, rfl⟩ : ∃ (p : Fin 10000) (j : Fin 2), y = ValueIdx.ix2 p j := ⟨y 0, y 1, ValueIdx.eq_ix2 y⟩
  obtain ⟨r, j', rfl⟩ : ∃ (r : Fin 50000) (j' : Fin 2), i = ValueIdx.ix2 r j' := ⟨i 0, i 1, ValueIdx.eq_ix2 i⟩
  obtain rfl : j' = j := Fin.ext hi1
  rw [payload_apply, whole_apply]
  refine congrArg₂ (· + ·) (Finset.sum_congr rfl fun k _ => ?_) rfl
  rw [h0 p k r hi0]

/-- The bias window's block at every point is the whole bias row. -/
theorem bias_block (c : Dev nD) (t : Fin cfg4.N) : iblk4 V c 1 t = bin V c := by
  obtain ⟨e00, e01, e10, e11, e20, e21, e30, e31, e40, e41⟩ := block_indices t
  funext y
  show V c main_v18 (((cfg4.win 1).blk t).view.emb y) = V c main_v18 y
  refine congrArg (V c main_v18) (funext fun a => Fin.ext ?_)
  match a with
  | ⟨0, _⟩ => show win4_1.index t (0 : Fin 2) * 1 + 1 * (y 0).val = (y 0).val; omega
  | ⟨1, _⟩ => show win4_1.index t (1 : Fin 2) * 64 + 1 * (y 1).val = (y 1).val; omega

/-- The weight window's block at every point is the whole weight matrix. -/
theorem weight_block (c : Dev nD) (t : Fin cfg4.N) : iblk4 V c 2 t = win V c := by
  obtain ⟨e00, e01, e10, e11, e20, e21, e30, e31, e40, e41⟩ := block_indices t
  funext y
  show V c main_arg7 (((cfg4.win 2).blk t).view.emb y) = V c main_arg7 y
  refine congrArg (V c main_arg7) (funext fun a => Fin.ext ?_)
  match a with
  | ⟨0, _⟩ => show win4_2.index t (0 : Fin 2) * 64 + 1 * (y 0).val = (y 0).val; omega
  | ⟨1, _⟩ => show win4_2.index t (1 : Fin 2) * 2 + 1 * (y 1).val = (y 1).val; omega

/-- The output-bias window's block at every point is the whole output-bias row. -/
theorem outBias_block (c : Dev nD) (t : Fin cfg4.N) : iblk4 V c 3 t = lin V c := by
  obtain ⟨e00, e01, e10, e11, e20, e21, e30, e31, e40, e41⟩ := block_indices t
  funext y
  show V c main_v19 (((cfg4.win 3).blk t).view.emb y) = V c main_v19 y
  refine congrArg (V c main_v19) (funext fun a => Fin.ext ?_)
  match a with
  | ⟨0, _⟩ => show win4_3.index t (0 : Fin 2) * 1 + 1 * (y 0).val = (y 0).val; omega
  | ⟨1, _⟩ => show win4_3.index t (1 : Fin 2) * 2 + 1 * (y 1).val = (y 1).val; omega

/-- Row p of the input window's block at point t is row t·10000 + p of the input array. -/
theorem input_block (c : Dev nD) (t : Fin cfg4.N) (p : Fin 10000) (k : Fin 64) (r : Fin 50000) (hr : r.val = t.val * 10000 + p.val) :
    iblk4 V c 0 t (ValueIdx.ix2 p k) = ain V c (ValueIdx.ix2 r k) := by
  obtain ⟨e00, e01, e10, e11, e20, e21, e30, e31, e40, e41⟩ := block_indices t
  show V c main_v17 (((cfg4.win 0).blk t).view.emb (ValueIdx.ix2 p k)) = V c main_v17 (ValueIdx.ix2 r k)
  refine congrArg (V c main_v17) (funext fun a => Fin.ext ?_)
  match a with
  | ⟨0, _⟩ => show win4_0.index t (0 : Fin 2) * 10000 + 1 * p.val = r.val; omega
  | ⟨1, _⟩ => show win4_0.index t (1 : Fin 2) * 64 + 1 * k.val = k.val; omega

/-- What point t writes back is block t of the whole-array function of the arrays the region finds. -/
theorem flushed_eq (c : Dev nD) (t : Fin cfg4.N) :
    (dat4 (F := Ideal) V c).flushed 4 t
      = ((cfg4.win 4).blk t).view.read (Elt Ideal) (Whole.brmmb64 (ain V c) (bin V c) (win V c) (lin V c)) := by
  show (cfg4.win 4).cut (grid4.coords t) ((dat4 V c).after 4 t) = _
  rw [after4_4]
  unfold out4_4
  rw [View.canon_unit_zero zero_offsets]
  simp only [View.ld_unit_zero (S := S10000x64) zero_offsets, View.ld_unit_zero (S := S1x64) zero_offsets,
    View.ld_unit_zero (S := S64x2) zero_offsets, View.ld_unit_zero (S := S1x2) zero_offsets]
  rw [bias_block V c t, weight_block V c t, outBias_block V c t]
  obtain ⟨e00, e01, e10, e11, e20, e21, e30, e31, e40, e41⟩ := block_indices t
  funext y
  show k4_pay1 (F := Ideal) (iblk4 V c 0 t) (bin V c) (win V c) (lin V c) y
    = Whole.brmmb64 (F := Ideal) (ain V c) (bin V c) (win V c) (lin V c) (((cfg4.win 4).blk t).view.emb y)
  refine point_eq (ain V c) (bin V c) (win V c) (lin V c) (iblk4 V c 0 t) t.val (fun p k r hr => input_block V c t p k r hr) y _ ?_ ?_
  · show win4_4.index t (0 : Fin 2) * 10000 + 1 * (y 0).val = t.val * 10000 + (y 0).val; omega
  · show win4_4.index t (1 : Fin 2) * 2 + 1 * (y 1).val = (y 1).val; omega

/-- An index of the output array is in point t's block iff each coordinate is in the block's range on its axis. -/
theorem mem_blk (t : Fin cfg4.N) (i : S50000x2.Idx) :
    i ∈ ((cfg4.win 4).blk t).view.set ↔ ∀ a : Fin 2, win4_4.index t a * S10000x2.size a ≤ (i a).val ∧ (i a).val < win4_4.index t a * S10000x2.size a + S10000x2.size a := by
  show i ∈ ((View.whole main_v20).slice (win4_4.rect t)).set ↔ _
  rw [View.set_slice_whole, Rect.mem_set_unit]
  exact Iff.rfl

/-- Every block index (q, 0), q below 5, is some point's. -/
theorem block_onto : ∀ q : Fin 5, ∃ t : Fin cfg4.N, win4_4.index t = ![q.val, 0] :=
  (by decide +kernel : ∀ q : Fin 5, ∃ t : Fin grid4.N, win4_4.index t = ![q.val, 0])

/-- Row r of the output array is in the block of the point whose block index is r / 10000. -/
theorem cover (i : S50000x2.Idx) : ∃ t : Fin cfg4.N, (cfg4.win 4).flush t = true ∧ i ∈ ((cfg4.win 4).blk t).view.set := by
  have hi0 : (i 0).val < 50000 := (i 0).isLt
  have hi1 : (i 1).val < 2 := (i 1).isLt
  obtain ⟨t, ht⟩ := block_onto ⟨(i 0).val / 10000, by omega⟩
  have q0 : win4_4.index t (0 : Fin 2) = (i 0).val / 10000 := congrFun ht 0
  have q1 : win4_4.index t (1 : Fin 2) = 0 := congrFun ht 1
  refine ⟨t, flush4_4 t, ?_⟩
  rw [mem_blk]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 2 ≤ (i 1).val ∧ (i 1).val < win4_4.index t (1 : Fin 2) * 2 + 2; omega

/-- After the five grid points the output array holds max(a + b, 0) · Wl + bl, whole. -/
theorem final (c : Dev nD) : (dat4 (F := Ideal) V c).arrAt 4 cfg4.N = Whole.brmmb64 (ain V c) (bin V c) (win V c) (lin V c) :=
  (dat4 (F := Ideal) V c).arrAt_eq_of_cover 4 (Whole.brmmb64 (ain V c) (bin V c) (win V c) (lin V c)) (fun t _ => flushed_eq V c t) cover

end Cert.KernelIdeal.Region4

end
-- ==== Proof.TakeMask.lean ====
import proofs.«424225_j3822520893440_1_alg».proof.Proof.Whole
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.TakeMask

open Cert.KernelIdeal Cert.KernelIdeal.Gen Cert.KernelIdeal.Whole
open Idealize.ShloMosaic Idealize.ShloMosaic.TcCoe Idealize.SL.Sem

variable {F : FTy → Type} [FloatOps F]

/-- One word. For −50000 ≤ w < 50000 as a signed 32-bit word, the wrapped word (w + 50000 where w is negative, else w)
    lies in [0, 49999]: a negative w has −50000 ≤ w ≤ −1, so w + 50000 is in [0, 49999] and the 32-bit addition does not
    wrap; a non-negative w is below 50000 already. Both comparisons of the bounds test are then 1, and so is their and. -/
theorem wrap_word (w : BitVec 32) (h : InRange w) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  obtain ⟨h1, h2⟩ := h
  -- the hypotheses as inequalities between signed values
  simp only [IntOp.cmpi, StableHlo.Predicate.ofBool_eq_one_iff, BitVec.sle, BitVec.slt, decide_eq_true_eq] at h1 h2
  have c1 : (4294917296#32 : BitVec 32).toInt = -50000 := by decide
  have c2 : (50000#32 : BitVec 32).toInt = 50000 := by decide
  have c3 : (0#32 : BitVec 32).toInt = 0 := by decide
  have c4 : (49999#32 : BitVec 32).toInt = 49999 := by decide
  rw [c1] at h1; rw [c2] at h2
  -- for a negative w in range the sum w + 50000 is its own balanced residue modulo 2^32
  have hadd : w.toInt < 0 → (w + 50000#32).toInt = w.toInt + 50000 := by
    intro hneg
    rw [BitVec.toInt_add, c2, Int.bmod_def]
    omega
  rw [IntOp.andi_eq_one]
  simp only [IntOp.cmpi, IntOp.addi, Scalar.select, StableHlo.Predicate.ofBool_eq_one_iff, BitVec.sle, BitVec.slt,
    decide_eq_true_eq, c3, c4]
  -- the select's condition is the sign test
  have hc : (BitVec.ofBool (decide (w.toInt < 0)) = 1) ↔ w.toInt < 0 := by
    rw [show (1 : BitVec 1) = 1#1 from rfl, StableHlo.Predicate.ofBool_eq_one_iff, decide_eq_true_eq]
  by_cases hn : w.toInt < 0
  · rw [if_pos (hc.2 hn), hadd hn]; omega
  · rw [if_neg (fun h => hn (hc.1 h))]; omega

/-- A left fold by `and` from 1 over `i1` words that are all 1 is 1 (the converse of reading such a fold back). -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- Where every source index is a valid NumPy index, every wrapped index is in bounds: the bounds mask is all ones. -/
theorem inBounds_wrapIdx (s : IVec S800000 32) (hs : ∀ e, InRange (s e)) (e : S800000.Idx) : inBounds (wrapIdx s) e = 1#1 := by
  -- The mask at `e` is a left fold by `and`, from the constant 1, of the bounds test over the column's indices that
  -- reduce into `e`. The test is 1 at EVERY index of the column: there the wrapped column reads the wrapped form of one
  -- source word, the two bounds are the constants 0 and 49999, and the word fact applies. So the fold is 1.
  unfold inBounds
  rw [Host.reduce_eq_foldl]
  refine foldl_andi_one _ (fun i => ?_) _
  exact wrap_word _ (hs _)

/-- So the fill form of the take keeps every row: it is the plain take. -/
theorem takeFill128_eq (h : FVec F S50000x128 .f32) (s : IVec S800000 32) (hs : ∀ e, InRange (s e)) :
    takeFill128 h s = take128 h s := by
  -- element by element: the mask broadcast along the row reads the all-ones bounds mask, and a select at 1 is its first branch
  funext j
  unfold takeFill128 take128 select broadcastInDim
  simp only [inBounds_wrapIdx s hs]
  rfl
theorem takeFill64_eq (h : FVec F S50000x64 .f32) (s : IVec S800000 32) (hs : ∀ e, InRange (s e)) :
    takeFill64 h s = take64 h s := by
  funext j
  unfold takeFill64 take64 select broadcastInDim
  simp only [inBounds_wrapIdx s hs]
  rfl

end Cert.KernelIdeal.TakeMask

end
-- ==== Proof.TakeOps.lean ====
/-
  The two fill-form takes of the program, each as its list of host operations on the buffers themselves: wrap the source
  index (compare with 0, add 50000, select), make it a column, test it against [0, 49999], and-reduce the test, gather
  the rows, broadcast the test along the row, and select between the gathered row and the fill value.
-/
import proofs.«424225_j3822520893440_1_alg».proof.Proof.Gen.KernelIdeal.Launch

noncomputable section

namespace Cert.KernelIdeal.TakeOps

open Cert.KernelIdeal Cert.KernelIdeal.Gen
open Idealize.ShloMosaic Idealize.ShloMosaic.TcCoe Idealize.SL.Sem

variable {F : FTy → Type} [FloatOps F]

/-- The first take (23 operations), on the [50000,128] table. -/
abbrev takeOps1 : List (HloOp τ sig (Elt F)) :=
  [ StableHlo.nullary main_call0_c (constantI S_ 32 0#32 : (⟨S_, .i32⟩ : BufTy).Contents (Elt F)),
    StableHlo.unary main_call0_c main_call0_v0 (broadcastInDim S800000 ![] bcast_S_S800000 : (⟨S_, .i32⟩ : BufTy).Contents (Elt F) → (⟨S800000, .i32⟩ : BufTy).Contents (Elt F)),
    StableHlo.binary main_v1 main_call0_v0 main_call0_v1 (cmpi .slt : (⟨S800000, .i32⟩ : BufTy).Contents (Elt F) → (⟨S800000, .i32⟩ : BufTy).Contents (Elt F) → (⟨S800000, .i1⟩ : BufTy).Contents (Elt F)),
    StableHlo.nullary main_call0_c_0 (constantI S_ 32 50000#32 : (⟨S_, .i32⟩ : BufTy).Contents (Elt F)),
    StableHlo.unary main_call0_c_0 main_call0_v2 (broadcastInDim S800000 ![] bcast_S_S800000 : (⟨S_, .i32⟩ : BufTy).Contents (Elt F) → (⟨S800000, .i32⟩ : BufTy).Contents (Elt F)),
    StableHlo.binary main_v1 main_call0_v2 main_call0_v3 (addi : (⟨S800000, .i32⟩ : BufTy).Contents (Elt F) → (⟨S800000, .i32⟩ : BufTy).Contents (Elt F) → (⟨S800000, .i32⟩ : BufTy).Contents (Elt F)),
    StableHlo.ternary main_call0_v1 main_call0_v3 main_v1 main_call0_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call0_v4 main_call0_v5 (broadcastInDim S800000x1 ![0] bcast_S800000_S800000x1_0 : (⟨S800000, .i32⟩ : BufTy).Contents (Elt F) → (⟨S800000x1, .i32⟩ : BufTy).Contents (Elt F)),
    StableHlo.nullary main_call0_c_1 (constantI S1 32 49999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 (broadcastInDim S800000x1 ![] bcast_S_S800000x1 : (⟨S_, .i32⟩ : BufTy).Contents (Elt F) → (⟨S800000x1, .i32⟩ : BufTy).Contents (Elt F)),
    StableHlo.binary main_call0_v5 main_call0_v6 main_call0_v7 (cmpi .sge : (⟨S800000x1, .i32⟩ : BufTy).Contents (Elt F) → (⟨S800000x1, .i32⟩ : BufTy).Contents (Elt F) → (⟨S800000x1, .i1⟩ : BufTy).Contents (Elt F)),
    StableHlo.unary main_call0_c_1 main_call0_v8 (broadcastInDim S1x1 ![1] bcast_S1_S1x1_1 : (⟨S1, .i32⟩ : BufTy).Contents (Elt F) → (⟨S1x1, .i32⟩ : BufTy).Contents (Elt F)),
    StableHlo.unary main_call0_v8 main_call0_v9 (broadcastInDim S800000x1 ![0, 1] bcast_S1x1_S800000x1_0_1 : (⟨S1x1, .i32⟩ : BufTy).Contents (Elt F) → (⟨S800000x1, .i32⟩ : BufTy).Contents (Elt F)),
    StableHlo.binary main_call0_v5 main_call0_v9 main_call0_v10 (cmpi .sle : (⟨S800000x1, .i32⟩ : BufTy).Contents (Elt F) → (⟨S800000x1, .i32⟩ : BufTy).Contents (Elt F) → (⟨S800000x1, .i1⟩ : BufTy).Contents (Elt F)),
    StableHlo.binary main_call0_v7 main_call0_v10 main_call0_v11 (andi : (⟨S800000x1, .i1⟩ : BufTy).Contents (Elt F) → (⟨S800000x1, .i1⟩ : BufTy).Contents (Elt F) → (⟨S800000x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 (fun x v => Host.reduce IntOp.andi x v reducesTo_S800000x1_S800000_d1 h_S_ : (⟨S800000x1, .i1⟩ : BufTy).Contents (Elt F) → (⟨S_, .i1⟩ : BufTy).Contents (Elt F) → (⟨S800000, .i1⟩ : BufTy).Contents (Elt F)),
    StableHlo.binary main_v5 main_call0_v5 main_call0_v13 (fun x i => Host.gather gather_S50000x128_S800000x1_S800000x128_1_0_n_n_0_1_1128 x i : (⟨S50000x128, .f32⟩ : BufTy).Contents (Elt F) → (⟨S800000x1, .i32⟩ : BufTy).Contents (Elt F) → (⟨S800000x128, .f32⟩ : BufTy).Contents (Elt F)),
    StableHlo.unary main_call0_v12 main_call0_v14 (broadcastInDim S800000x128 ![0] bcast_S800000_S800000x128_0 : (⟨S800000, .i1⟩ : BufTy).Contents (Elt F) → (⟨S800000x128, .i1⟩ : BufTy).Contents (Elt F)),
    StableHlo.nullary main_call0_cst (constant S_ .f32 0x7FC00000#32 : (⟨S_, .f32⟩ : BufTy).Contents (Elt F)),
    StableHlo.unary main_call0_cst main_call0_v15 (broadcastInDim S800000x128 ![] bcast_S_S800000x128 : (⟨S_, .f32⟩ : BufTy).Contents (Elt F) → (⟨S800000x128, .f32⟩ : BufTy).Contents (Elt F)),
    StableHlo.ternary main_call0_v14 main_call0_v13 main_call0_v15 main_v6 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

/-- The second take (23 operations), on the [50000,64] table. -/
abbrev takeOps3 : List (HloOp τ sig (Elt F)) :=
  [ StableHlo.nullary main_call1_c (constantI S_ 32 0#32 : (⟨S_, .i32⟩ : BufTy).Contents (Elt F)),
    StableHlo.unary main_call1_c main_call1_v0 (broadcastInDim S800000 ![] bcast_S_S800000 : (⟨S_, .i32⟩ : BufTy).Contents (Elt F) → (⟨S800000, .i32⟩ : BufTy).Contents (Elt F)),
    StableHlo.binary main_v1 main_call1_v0 main_call1_v1 (cmpi .slt : (⟨S800000, .i32⟩ : BufTy).Contents (Elt F) → (⟨S800000, .i32⟩ : BufTy).Contents (Elt F) → (⟨S800000, .i1⟩ : BufTy).Contents (Elt F)),
    StableHlo.nullary main_call1_c_0 (constantI S_ 32 50000#32 : (⟨S_, .i32⟩ : BufTy).Contents (Elt F)),
    StableHlo.unary main_call1_c_0 main_call1_v2 (broadcastInDim S800000 ![] bcast_S_S800000 : (⟨S_, .i32⟩ : BufTy).Contents (Elt F) → (⟨S800000, .i32⟩ : BufTy).Contents (Elt F)),
    StableHlo.binary main_v1 main_call1_v2 main_call1_v3 (addi : (⟨S800000, .i32⟩ : BufTy).Contents (Elt F) → (⟨S800000, .i32⟩ : BufTy).Contents (Elt F) → (⟨S800000, .i32⟩ : BufTy).Contents (Elt F)),
    StableHlo.ternary main_call1_v1 main_call1_v3 main_v1 main_call1_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call1_v4 main_call1_v5 (broadcastInDim S800000x1 ![0] bcast_S800000_S800000x1_0 : (⟨S800000, .i32⟩ : BufTy).Contents (Elt F) → (⟨S800000x1, .i32⟩ : BufTy).Contents (Elt F)),
    StableHlo.nullary main_call1_c_1 (constantI S1 32 49999#32 : (⟨S1, .i32⟩ : BufTy).Contents (Elt F)),
    StableHlo.nullary main_call1_c_2 (constantI S_ 32 0#32 : (⟨S_, .i32⟩ : BufTy).Contents (Elt F)),
    StableHlo.unary main_call1_c_2 main_call1_v6 (broadcastInDim S800000x1 ![] bcast_S_S800000x1 : (⟨S_, .i32⟩ : BufTy).Contents (Elt F) → (⟨S800000x1, .i32⟩ : BufTy).Contents (Elt F)),
    StableHlo.binary main_call1_v5 main_call1_v6 main_call1_v7 (cmpi .sge : (⟨S800000x1, .i32⟩ : BufTy).Contents (Elt F) → (⟨S800000x1, .i32⟩ : BufTy).Contents (Elt F) → (⟨S800000x1, .i1⟩ : BufTy).Contents (Elt F)),
    StableHlo.unary main_call1_c_1 main_call1_v8 (broadcastInDim S1x1 ![1] bcast_S1_S1x1_1 : (⟨S1, .i32⟩ : BufTy).Contents (Elt F) → (⟨S1x1, .i32⟩ : BufTy).Contents (Elt F)),
    StableHlo.unary main_call1_v8 main_call1_v9 (broadcastInDim S800000x1 ![0, 1] bcast_S1x1_S800000x1_0_1 : (⟨S1x1, .i32⟩ : BufTy).Contents (Elt F) → (⟨S800000x1, .i32⟩ : BufTy).Contents (Elt F)),
    StableHlo.binary main_call1_v5 main_call1_v9 main_call1_v10 (cmpi .sle : (⟨S800000x1, .i32⟩ : BufTy).Contents (Elt F) → (⟨S800000x1, .i32⟩ : BufTy).Contents (Elt F) → (⟨S800000x1, .i1⟩ : BufTy).Contents (Elt F)),
    StableHlo.binary main_call1_v7 main_call1_v10 main_call1_v11 (andi : (⟨S800000x1, .i1⟩ : BufTy).Contents (Elt F) → (⟨S800000x1, .i1⟩ : BufTy).Contents (Elt F) → (⟨S800000x1, .i1⟩ : BufTy).Contents (Elt F)),
    StableHlo.nullary main_call1_c_3 (constantI S_ 1 1#1 : (⟨S_, .i1⟩ : BufTy).Contents (Elt F)),
    StableHlo.binary main_call1_v11 main_call1_c_3 main_call1_v12 (fun x v => Host.reduce IntOp.andi x v reducesTo_S800000x1_S800000_d1 h_S_ : (⟨S800000x1, .i1⟩ : BufTy).Contents (Elt F) → (⟨S_, .i1⟩ : BufTy).Contents (Elt F) → (⟨S800000, .i1⟩ : BufTy).Contents (Elt F)),
    StableHlo.binary main_v12 main_call1_v5 main_call1_v13 (fun x i => Host.gather gather_S50000x64_S800000x1_S800000x64_1_0_n_n_0_1_164 x i : (⟨S50000x64, .f32⟩ : BufTy).Contents (Elt F) → (⟨S800000x1, .i32⟩ : BufTy).Contents (Elt F) → (⟨S800000x64, .f32⟩ : BufTy).Contents (Elt F)),
    StableHlo.unary main_call1_v12 main_call1_v14 (broadcastInDim S800000x64 ![0] bcast_S800000_S800000x64_0 : (⟨S800000, .i1⟩ : BufTy).Contents (Elt F) → (⟨S800000x64, .i1⟩ : BufTy).Contents (Elt F)),
    StableHlo.nullary main_call1_cst (constant S_ .f32 0x7FC00000#32 : (⟨S_, .f32⟩ : BufTy).Contents (Elt F)),
    StableHlo.unary main_call1_cst main_call1_v15 (broadcastInDim S800000x64 ![] bcast_S_S800000x64 : (⟨S_, .f32⟩ : BufTy).Contents (Elt F) → (⟨S800000x64, .f32⟩ : BufTy).Contents (Elt F)),
    StableHlo.ternary main_call1_v14 main_call1_v13 main_call1_v15 main_v13 (select : (⟨S800000x64, .i1⟩ : BufTy).Contents (Elt F) → (⟨S800000x64, .f32⟩ : BufTy).Contents (Elt F) → (⟨S800000x64, .f32⟩ : BufTy).Contents (Elt F) → (⟨S800000x64, .f32⟩ : BufTy).Contents (Elt F)) ]

end Cert.KernelIdeal.TakeOps

end
-- ==== Proof.Chain.lean ====
/-
  The result array, read back through the program's ten segments.

  Between the launch and the result the program's buffers pass ten boundaries: after each stretch of host operations and
  after each kernel call. A stretch gives each buffer it writes its operation's value of the buffers before it and keeps
  every other buffer; a kernel call gives its output array what its grid points write back (the whole-array value of
  that call) and keeps every buffer that is not one of its arrays, its input arrays included. Walking the result array
  main_v20 back through the ten boundaries names it as ONE function of the nine argument arrays:
    h1 = x · W1,  g1 = take(h1, src),  m1 = g1 · ew,  a1 = sum of m1 into dst,
    h2 = max(a1 + b1, 0) · W2,  g2, m2, a2 likewise,  out = max(a2 + b2, 0) · Wl + bl.
  The two takes are the program's fill-form takes; where every source index is a valid NumPy index into the 50000-row
  table the fill never applies and each is the plain take.
-/
import proofs.«424225_j3822520893440_1_alg».proof.Proof.Gen.KernelIdeal.Frame
import proofs.«424225_j3822520893440_1_alg».proof.Proof.Whole
import proofs.«424225_j3822520893440_1_alg».proof.Proof.Region0
import proofs.«424225_j3822520893440_1_alg».proof.Proof.Region1
import proofs.«424225_j3822520893440_1_alg».proof.Proof.Region2
import proofs.«424225_j3822520893440_1_alg».proof.Proof.Region3
import proofs.«424225_j3822520893440_1_alg».proof.Proof.Region4
import proofs.«424225_j3822520893440_1_alg».proof.Proof.TakeMask
import proofs.«424225_j3822520893440_1_alg».proof.Proof.TakeOps
import Idealize.ShloMosaic.Lib.StableHlo.Run
import Idealize.ShloMosaic.PureOps.Ideal

set_option maxRecDepth 16384

noncomputable section

namespace Cert.KernelIdeal.Chain

open Cert.KernelIdeal Cert.KernelIdeal.Gen Cert.KernelIdeal.Whole Cert.KernelIdeal.TakeOps
open Idealize.ShloMosaic Idealize.ShloMosaic.TcCoe Idealize.SL.Sem Idealize.ShloMosaic.StableHlo

variable (m : (ℓ : Loc nD τ sig) → Buf (Elt Ideal) ℓ) (ρ : Dev nD → PrngReg)

/-- A stretch keeps a buffer that none of its operations writes. -/
macro "hk " ops:ident : tactic => `(tactic| refine (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_)
/-- A kernel call keeps a buffer that is none of its windows' arrays. -/
macro "rk " lem:ident : tactic => `(tactic| refine ($lem _ _ _ _ (by decide)).trans ?_)

/-- Equal operands, equal values (three and four operands). -/
theorem congr3 {α β γ δ : Type} (f : α → β → γ → δ) {a a' : α} {b b' : β} {c c' : γ} (ha : a = a') (hb : b = b') (hc : c = c') :
    f a b c = f a' b' c' := by subst ha hb hc; rfl
theorem congr4 {α β γ δ ε : Type} (f : α → β → γ → δ → ε) {a a' : α} {b b' : β} {c c' : γ} {d d' : δ}
    (ha : a = a') (hb : b = b') (hc : c = c') (hd : d = d') : f a b c d = f a' b' c' d' := by subst ha hb hc hd; rfl

/-! ## The two takes' stretches on the buffers themselves

The program states a take's operations through typed references, which transport each buffer's contents along the
buffer's own type: the identity. Operation by operation the stretch is the list of the same operations on the buffers
themselves (Proof/TakeOps.lean); for the and-reduction the identity of the transport is stated once for ANY function
of the two operands, so that the reduction is never opened. -/

section
variable {F : FTy → Type} [FloatOps F]

/-- A two-operand operation stated through typed references is the operation on the buffers themselves: the transport
    of a buffer's contents along its own type is the identity. Generic in the operation's function. -/
theorem tbinary_plain (a b y : Ref sig .tc) (ha : a.space ≠ .host) (ha' : a.isScoped = false)
    (hb : b.space ≠ .host) (hb' : b.isScoped = false) (hy : y.space ≠ .host) (hy' : y.isScoped = false)
    (f : a.ty.Contents (Elt F) → b.ty.Contents (Elt F) → y.ty.Contents (Elt F)) :
    StableHlo.TRef.binary (τ := τ) (⟨a, rfl, ha, ha'⟩ : StableHlo.TRef sig a.ty) (⟨b, rfl, hb, hb'⟩ : StableHlo.TRef sig b.ty)
        (⟨y, rfl, hy, hy'⟩ : StableHlo.TRef sig y.ty) f
      = StableHlo.binary a b y f ⟨ha, ha'⟩ ⟨hb, hb'⟩ ⟨hy, hy'⟩ := rfl

theorem hostOps1_eq : (hostOps1 : List (HloOp τ sig (Elt F))) = takeOps1 := by
  iterate 17 refine congrArg₂ List.cons rfl ?_
  refine congrArg₂ List.cons (tbinary_plain main_call0_v11 main_call0_c_3 main_call0_v12 _ _ _ _ _ _ _) ?_
  iterate 5 refine congrArg₂ List.cons rfl ?_
  rfl
theorem hostOps3_eq : (hostOps3 : List (HloOp τ sig (Elt F))) = takeOps3 := by
  iterate 17 refine congrArg₂ List.cons rfl ?_
  refine congrArg₂ List.cons (tbinary_plain main_call1_v11 main_call1_c_3 main_call1_v12 _ _ _ _ _ _ _) ?_
  iterate 5 refine congrArg₂ List.cons rfl ?_
  rfl
end

/-! ## The argument arrays and the stages, at their literal types -/

abbrev ax (c : Dev nD) : FVec Ideal S50000x128 .f32 := m ((c : Thread nD τ).loc main_arg0)
abbrev aei (c : Dev nD) : IVec S2x800000 32 := m ((c : Thread nD τ).loc main_arg1)
abbrev aew (c : Dev nD) : FVec Ideal S800000 .f32 := m ((c : Thread nD τ).loc main_arg2)
abbrev aW1 (c : Dev nD) : FVec Ideal S128x128 .f32 := m ((c : Thread nD τ).loc main_arg3)
abbrev ab1 (c : Dev nD) : FVec Ideal S128 .f32 := m ((c : Thread nD τ).loc main_arg4)
abbrev aW2 (c : Dev nD) : FVec Ideal S128x64 .f32 := m ((c : Thread nD τ).loc main_arg5)
abbrev ab2 (c : Dev nD) : FVec Ideal S64 .f32 := m ((c : Thread nD τ).loc main_arg6)
abbrev aWl (c : Dev nD) : FVec Ideal S64x2 .f32 := m ((c : Thread nD τ).loc main_arg7)
abbrev abl (c : Dev nD) : FVec Ideal S2 .f32 := m ((c : Thread nD τ).loc main_arg8)

/-- The edge weights as a column. -/
def e2 (c : Dev nD) : FVec Ideal S800000x1 .f32 := shapeCast S800000x1 (aew m c) shapeCasts_S800000_S800000x1
/-- Layer one: the projected nodes, the weighted messages, their sums per destination. -/
def h1 (c : Dev nD) : FVec Ideal S50000x128 .f32 := mm1 (ax m c) (aW1 m c)
def m1 (c : Dev nD) : FVec Ideal S800000x128 .f32 := wmul128 (e2 m c) (take128 (h1 m c) (srcVec (aei m c)))
def a1 (c : Dev nD) : FVec Ideal S50000x128 .f32 := agg128 (dstVec (aei m c)) (m1 m c)
/-- Layer two. -/
def h2 (c : Dev nD) : FVec Ideal S50000x64 .f32 := brmm128 (a1 m c) (shapeCast S1x128 (ab1 m c) shapeCasts_S128_S1x128) (aW2 m c)
def m2 (c : Dev nD) : FVec Ideal S800000x64 .f32 := wmul64 (e2 m c) (take64 (h2 m c) (srcVec (aei m c)))
def a2 (c : Dev nD) : FVec Ideal S50000x64 .f32 := agg64 (dstVec (aei m c)) (m2 m c)

/-! ## After the first stretch: the edge list's rows, the weight column, the arguments -/

theorem W1_v1 (c : Dev nD) : W1 m ρ c (Proc.devRef .tc main_v1) = srcVec (aei m c) := by
  show StableHlo.after hostOps0 (W0 m ρ c) (Proc.devRef .tc main_v1) = _
  after_results
  rfl
theorem W1_v3 (c : Dev nD) : W1 m ρ c (Proc.devRef .tc main_v3) = dstVec (aei m c) := by
  show StableHlo.after hostOps0 (W0 m ρ c) (Proc.devRef .tc main_v3) = _
  after_results
  rfl
theorem W1_v4 (c : Dev nD) : W1 m ρ c (Proc.devRef .tc main_v4) = e2 m c := by
  show StableHlo.after hostOps0 (W0 m ρ c) (Proc.devRef .tc main_v4) = _
  after_results
  rfl
theorem W1_arg0 (c : Dev nD) : W1 m ρ c (Proc.devRef .tc main_arg0) = ax m c := by
  hk hostOps0
  rfl
theorem W1_arg3 (c : Dev nD) : W1 m ρ c (Proc.devRef .tc main_arg3) = aW1 m c := by
  hk hostOps0
  rfl

/-! ## Kernel call 0: x · W1 -/

theorem W2_v5 (c : Dev nD) : W2 m ρ c (Proc.devRef .tc main_v5) = h1 m c := by
  refine (W2_arr m ρ c 2).trans ((Region0.final (V1 m ρ) c).trans ?_)
  exact congrArg₂ (mm1 (F := Ideal)) (W1_arg0 m ρ c) (W1_arg3 m ρ c)
theorem W2_v1 (c : Dev nD) : W2 m ρ c (Proc.devRef .tc main_v1) = srcVec (aei m c) := by
  rk W2_of_ne
  exact W1_v1 m ρ c

/-! ## The first take and kernel call 1: the weighted messages -/

set_option maxHeartbeats 2000000 in
theorem W3_v6_fill (c : Dev nD) : W3 m ρ c (Proc.devRef .tc main_v6)
    = takeFill128 (F := Ideal) (W2 m ρ c (Proc.devRef .tc main_v5)) (W2 m ρ c (Proc.devRef .tc main_v1)) := by
  show StableHlo.after hostOps1 (W2 m ρ c) (Proc.devRef .tc main_v6) = _
  generalize W2 m ρ c = W
  rw [hostOps1_eq]
  after_results_simp
  rfl
theorem W3_v6 (c : Dev nD) (hs : ∀ e, InRange (srcVec (aei m c) e)) :
    W3 m ρ c (Proc.devRef .tc main_v6) = take128 (h1 m c) (srcVec (aei m c)) := by
  refine (W3_v6_fill m ρ c).trans ?_
  refine (congrArg₂ (takeFill128 (F := Ideal)) (W2_v5 m ρ c) (W2_v1 m ρ c)).trans ?_
  exact TakeMask.takeFill128_eq _ _ hs
theorem W3_v4 (c : Dev nD) : W3 m ρ c (Proc.devRef .tc main_v4) = e2 m c := by
  hk hostOps1
  rk W2_of_ne
  exact W1_v4 m ρ c
theorem W4_v7 (c : Dev nD) (hs : ∀ e, InRange (srcVec (aei m c) e)) : W4 m ρ c (Proc.devRef .tc main_v7) = m1 m c := by
  refine (W4_arr m ρ c 2).trans ((Region1.final (V3 m ρ) c).trans ?_)
  exact congrArg₂ (wmul128 (F := Ideal)) (W3_v4 m ρ c) (W3_v6 m ρ c hs)
theorem W4_v3 (c : Dev nD) : W4 m ρ c (Proc.devRef .tc main_v3) = dstVec (aei m c) := by
  rk W4_of_ne
  hk hostOps1
  rk W2_of_ne
  exact W1_v3 m ρ c
theorem W4_arg4 (c : Dev nD) : W4 m ρ c (Proc.devRef .tc main_arg4) = ab1 m c := by
  rk W4_of_ne
  hk hostOps1
  rk W2_of_ne
  hk hostOps0
  rfl

/-! ## The sums per destination and kernel call 2: max(a1 + b1, 0) · W2 -/

theorem W5_v10 (c : Dev nD) (hs : ∀ e, InRange (srcVec (aei m c) e)) : W5 m ρ c (Proc.devRef .tc main_v10) = a1 m c := by
  have e : W5 m ρ c (Proc.devRef .tc main_v10)
      = agg128 (F := Ideal) (W4 m ρ c (Proc.devRef .tc main_v3)) (W4 m ρ c (Proc.devRef .tc main_v7)) := by
    show StableHlo.after hostOps2 (W4 m ρ c) (Proc.devRef .tc main_v10) = _
    generalize W4 m ρ c = W
    after_results
    rfl
  exact e.trans (congrArg₂ (agg128 (F := Ideal)) (W4_v3 m ρ c) (W4_v7 m ρ c hs))
theorem W5_v11 (c : Dev nD) : W5 m ρ c (Proc.devRef .tc main_v11) = shapeCast S1x128 (ab1 m c) shapeCasts_S128_S1x128 := by
  have e : W5 m ρ c (Proc.devRef .tc main_v11)
      = shapeCast S1x128 (W4 m ρ c (Proc.devRef .tc main_arg4) : FVec Ideal S128 .f32) shapeCasts_S128_S1x128 := by
    show StableHlo.after hostOps2 (W4 m ρ c) (Proc.devRef .tc main_v11) = _
    generalize W4 m ρ c = W
    after_results
    rfl
  exact e.trans (congrArg (fun b : FVec Ideal S128 .f32 => shapeCast S1x128 b shapeCasts_S128_S1x128) (W4_arg4 m ρ c))
theorem W5_arg5 (c : Dev nD) : W5 m ρ c (Proc.devRef .tc main_arg5) = aW2 m c := by
  hk hostOps2
  rk W4_of_ne
  hk hostOps1
  rk W2_of_ne
  hk hostOps0
  rfl
theorem W6_v12 (c : Dev nD) (hs : ∀ e, InRange (srcVec (aei m c) e)) : W6 m ρ c (Proc.devRef .tc main_v12) = h2 m c := by
  refine (W6_arr m ρ c 3).trans ((Region2.final (V5 m ρ) c).trans ?_)
  exact congr3 (brmm128 (F := Ideal)) (W5_v10 m ρ c hs) (W5_v11 m ρ c) (W5_arg5 m ρ c)
theorem W6_v1 (c : Dev nD) : W6 m ρ c (Proc.devRef .tc main_v1) = srcVec (aei m c) := by
  rk W6_of_ne
  hk hostOps2
  rk W4_of_ne
  hk hostOps1
  exact W2_v1 m ρ c
theorem W6_v4 (c : Dev nD) : W6 m ρ c (Proc.devRef .tc main_v4) = e2 m c := by
  rk W6_of_ne
  hk hostOps2
  -- the weight column is an input array of kernel call 1: unchanged by it
  refine ((W4_arr m ρ c 1).trans (((dat1 (V3 m ρ) c).arrAt_in 1 rfl _).trans (A_eq1 (V3 m ρ) c 1))).trans ?_
  exact W3_v4 m ρ c
theorem W6_v3 (c : Dev nD) : W6 m ρ c (Proc.devRef .tc main_v3) = dstVec (aei m c) := by
  rk W6_of_ne
  hk hostOps2
  exact W4_v3 m ρ c
theorem W6_arg6 (c : Dev nD) : W6 m ρ c (Proc.devRef .tc main_arg6) = ab2 m c := by
  rk W6_of_ne
  hk hostOps2
  rk W4_of_ne
  hk hostOps1
  rk W2_of_ne
  hk hostOps0
  rfl
theorem W6_arg7 (c : Dev nD) : W6 m ρ c (Proc.devRef .tc main_arg7) = aWl m c := by
  rk W6_of_ne
  hk hostOps2
  rk W4_of_ne
  hk hostOps1
  rk W2_of_ne
  hk hostOps0
  rfl
theorem W6_arg8 (c : Dev nD) : W6 m ρ c (Proc.devRef .tc main_arg8) = abl m c := by
  rk W6_of_ne
  hk hostOps2
  rk W4_of_ne
  hk hostOps1
  rk W2_of_ne
  hk hostOps0
  rfl

/-! ## The second take and kernel call 3 -/

set_option maxHeartbeats 2000000 in
theorem W7_v13_fill (c : Dev nD) : W7 m ρ c (Proc.devRef .tc main_v13)
    = takeFill64 (F := Ideal) (W6 m ρ c (Proc.devRef .tc main_v12)) (W6 m ρ c (Proc.devRef .tc main_v1)) := by
  show StableHlo.after hostOps3 (W6 m ρ c) (Proc.devRef .tc main_v13) = _
  generalize W6 m ρ c = W
  rw [hostOps3_eq]
  after_results_simp
  rfl
theorem W7_v13 (c : Dev nD) (hs : ∀ e, InRange (srcVec (aei m c) e)) :
    W7 m ρ c (Proc.devRef .tc main_v13) = take64 (h2 m c) (srcVec (aei m c)) := by
  refine (W7_v13_fill m ρ c).trans ?_
  refine (congrArg₂ (takeFill64 (F := Ideal)) (W6_v12 m ρ c hs) (W6_v1 m ρ c)).trans ?_
  exact TakeMask.takeFill64_eq _ _ hs
theorem W7_v4 (c : Dev nD) : W7 m ρ c (Proc.devRef .tc main_v4) = e2 m c := by
  hk hostOps3
  exact W6_v4 m ρ c
theorem W8_v14 (c : Dev nD) (hs : ∀ e, InRange (srcVec (aei m c) e)) : W8 m ρ c (Proc.devRef .tc main_v14) = m2 m c := by
  refine (W8_arr m ρ c 2).trans ((Region3.final (V7 m ρ) c).trans ?_)
  exact congrArg₂ (wmul64 (F := Ideal)) (W7_v4 m ρ c) (W7_v13 m ρ c hs)
theorem W8_v3 (c : Dev nD) : W8 m ρ c (Proc.devRef .tc main_v3) = dstVec (aei m c) := by
  rk W8_of_ne
  hk hostOps3
  exact W6_v3 m ρ c
theorem W8_arg6 (c : Dev nD) : W8 m ρ c (Proc.devRef .tc main_arg6) = ab2 m c := by
  rk W8_of_ne
  hk hostOps3
  exact W6_arg6 m ρ c
theorem W8_arg7 (c : Dev nD) : W8 m ρ c (Proc.devRef .tc main_arg7) = aWl m c := by
  rk W8_of_ne
  hk hostOps3
  exact W6_arg7 m ρ c
theorem W8_arg8 (c : Dev nD) : W8 m ρ c (Proc.devRef .tc main_arg8) = abl m c := by
  rk W8_of_ne
  hk hostOps3
  exact W6_arg8 m ρ c

/-! ## The second sums and kernel call 4: the result -/

theorem W9_v17 (c : Dev nD) (hs : ∀ e, InRange (srcVec (aei m c) e)) : W9 m ρ c (Proc.devRef .tc main_v17) = a2 m c := by
  have e : W9 m ρ c (Proc.devRef .tc main_v17)
      = agg64 (F := Ideal) (W8 m ρ c (Proc.devRef .tc main_v3)) (W8 m ρ c (Proc.devRef .tc main_v14)) := by
    show StableHlo.after hostOps4 (W8 m ρ c) (Proc.devRef .tc main_v17) = _
    generalize W8 m ρ c = W
    after_results
    rfl
  exact e.trans (congrArg₂ (agg64 (F := Ideal)) (W8_v3 m ρ c) (W8_v14 m ρ c hs))
theorem W9_v18 (c : Dev nD) : W9 m ρ c (Proc.devRef .tc main_v18) = shapeCast S1x64 (ab2 m c) shapeCasts_S64_S1x64 := by
  have e : W9 m ρ c (Proc.devRef .tc main_v18)
      = shapeCast S1x64 (W8 m ρ c (Proc.devRef .tc main_arg6) : FVec Ideal S64 .f32) shapeCasts_S64_S1x64 := by
    show StableHlo.after hostOps4 (W8 m ρ c) (Proc.devRef .tc main_v18) = _
    generalize W8 m ρ c = W
    after_results
    rfl
  exact e.trans (congrArg (fun b : FVec Ideal S64 .f32 => shapeCast S1x64 b shapeCasts_S64_S1x64) (W8_arg6 m ρ c))
theorem W9_v19 (c : Dev nD) : W9 m ρ c (Proc.devRef .tc main_v19) = shapeCast S1x2 (abl m c) shapeCasts_S2_S1x2 := by
  have e : W9 m ρ c (Proc.devRef .tc main_v19)
      = shapeCast S1x2 (W8 m ρ c (Proc.devRef .tc main_arg8) : FVec Ideal S2 .f32) shapeCasts_S2_S1x2 := by
    show StableHlo.after hostOps4 (W8 m ρ c) (Proc.devRef .tc main_v19) = _
    generalize W8 m ρ c = W
    after_results
    rfl
  exact e.trans (congrArg (fun b : FVec Ideal S2 .f32 => shapeCast S1x2 b shapeCasts_S2_S1x2) (W8_arg8 m ρ c))
theorem W9_arg7 (c : Dev nD) : W9 m ρ c (Proc.devRef .tc main_arg7) = aWl m c := by
  hk hostOps4
  exact W8_arg7 m ρ c

/-- THE RESULT ARRAY at the last boundary is the two-layer graph convolution of the nine argument arrays, where every
    source index is a valid NumPy index into the node table. -/
theorem W10_v20 (c : Dev nD) (hs : ∀ e, InRange (srcVec (aei m c) e)) :
    W10 m ρ c (Proc.devRef .tc main_v20)
      = Whole.out (ax m c) (aei m c) (aew m c) (aW1 m c) (ab1 m c) (aW2 m c) (ab2 m c) (aWl m c) (abl m c) := by
  refine (W10_arr m ρ c 4).trans ((Region4.final (V9 m ρ) c).trans ?_)
  exact congr4 (brmmb64 (F := Ideal)) (W9_v17 m ρ c hs) (W9_v18 m ρ c) (W9_arg7 m ρ c) (W9_v19 m ρ c)

end Cert.KernelIdeal.Chain

end
-- ==== Proof.PreDecode.lean ====
import proofs.«424225_j3822520893440_1_alg».proof.Defs
import proofs.«424225_j3822520893440_1_alg».proof.Proof.Gen.Pre_finite_inputs
import proofs.«424225_j3822520893440_1_alg».proof.Proof.Whole
import Idealize.ShloMosaic.Lib.StableHlo.Predicate
import Idealize.ShloMosaic.Lib.ReduceAll

noncomputable section

namespace Cert.KernelIdeal.PreDecode

open Cert.KernelIdeal Cert.KernelIdeal.Whole
open Idealize.ShloMosaic Idealize.ShloMosaic.TcCoe Idealize.SL.Sem

/-- A rank-0 shape has exactly one index (the empty tuple). -/
theorem scalarIdx_subsingleton : Subsingleton Cert.Pre_finite_inputs.S_.Idx :=
  ⟨fun a b => funext fun d => d.elim0⟩

/-- The tail of the printed predicate, read at an edge. The predicate's value is a conjunction (bitwise and of one-bit
    words) whose last two conjuncts are "every source index is at least −50000" and "every source index is below 50000",
    each an and-reduction over all edges of an elementwise signed comparison of row 0 of the edge list with a broadcast
    constant. If the conjunction is 1 then both reductions are 1, so both comparisons are 1 at every edge. -/
theorem tail_in_range (ei : IVec Cert.Pre_finite_inputs.S2x800000 32) (bl : FVec Ideal Cert.Pre_finite_inputs.S2 .f32)
    (acc : IVec Cert.Pre_finite_inputs.S_ 1) (j : Cert.Pre_finite_inputs.S_.Idx)
    (h : Cert.Pre_finite_inputs.fn_part2 (F := Ideal) ei bl acc j = 1#1) (e : Cert.Pre_finite_inputs.S800000.Idx) :
    InRange (srcVec ei e) := by
  haveI := scalarIdx_subsingleton
  unfold Cert.Pre_finite_inputs.fn_part2 at h
  simp only [andi] at h
  obtain ⟨h44, h49⟩ := IntOp.andi_eq_one.1 h
  obtain ⟨-, h43⟩ := IntOp.andi_eq_one.1 h44
  have ge := Host.reduce_andi_all _ _ _ _ j h43 e
  have lt := Host.reduce_andi_all _ _ _ _ j h49 e
  exact ⟨ge, lt⟩

/-- The precondition's last two conjuncts, read at an edge: its source node is a valid NumPy index into the node table. -/
theorem src_in_range (m : (ℓ : Loc nD τ sig) → Buf (Elt Ideal) ℓ) (h : Cert.Pre_KernelIdeal m) (c : Dev nD) (e : S800000.Idx) :
    InRange (srcVec (m ((c.tc : Thread nD τ).loc main_arg1)) e) := by
  have e0 := congrFun (h c) (fun a => a.elim0)
  exact tail_in_range _ _ _ _ e0 e

end Cert.KernelIdeal.PreDecode

end
-- ==== Proof.RefStages.lean ====
import proofs.«424225_j3822520893440_1_alg».proof.Proof.Gen.ReferenceIdeal.Run
import proofs.«424225_j3822520893440_1_alg».proof.Proof.Whole
import Idealize.ShloMosaic.Lib.ValueIdx
import Idealize.ShloMosaic.Lib.ValueLayout
import Idealize.ShloMosaic.Lib.Pipeline.Value

noncomputable section

namespace Cert.ReferenceIdeal.Stages

open Cert.ReferenceIdeal Cert.ReferenceIdeal.Gen
open Idealize.ShloMosaic Idealize.ShloMosaic.TcCoe Idealize.SL.Sem

variable {F : FTy → Type} [FloatOps F]

/-- The reference's result term, the arguments as variables. -/
def refTerm (x : FVec F S50000x128 .f32) (ei : IVec S2x800000 32) (ew : FVec F S800000 .f32) (W1 : FVec F S128x128 .f32)
    (b1 : FVec F S128 .f32) (W2 : FVec F S128x64 .f32) (b2 : FVec F S64 .f32) (Wl : FVec F S64x2 .f32) (bl : FVec F S2 .f32) :
    FVec F S50000x2 .f32 :=
  addf (Host.dotGeneral dot_S50000x64_S64x2_S50000x2_1_0_0_1_n_n none (maximumf (addf (Host.scatterAdd scatter_S50000x64_S800000x1_S800000x64_1_0_0_1 (broadcastInDim S50000x64 ![] bcast_S_S50000x64 (constant S_ .f32 0x00000000#32)) (broadcastInDim S800000x1 ![0] bcast_S800000_S800000x1_0 (shapeCast _ (extractStridedSlice S1x800000 ![1, 0] ei slices_S2x800000_S1x800000_1_0) shapeCasts_S1x800000_S800000)) (mulf (broadcastInDim S800000x64 ![0, 1] bcast_S800000x1_S800000x64_0_1 (broadcastInDim S800000x1 ![0] bcast_S800000_S800000x1_0 ew)) (Host.gather gather_S50000x64_S800000x1_S800000x64_1_0_n_n_0_1_164 (Host.dotGeneral dot_S50000x128_S128x64_S50000x64_1_0_0_1_n_n none (maximumf (addf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] ei slices_S2x800000_S1x800000_1_0) shapeCasts_S1x800000_S800000)) (mulf (broadcastInDim S800000x128 ![0, 1] bcast_S800000x1_S800000x128_0_1 (broadcastInDim S800000x1 ![0] bcast_S800000_S800000x1_0 ew)) (Host.gather gather_S50000x128_S800000x1_S800000x128_1_0_n_n_0_1_1128 (Host.dotGeneral dot_S50000x128_S128x128_S50000x128_1_0_0_1_n_n none x W1) (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000)))))) (broadcastInDim S50000x128 ![0, 1] bcast_S1x128_S50000x128_0_1 (broadcastInDim S1x128 ![1] bcast_S128_S1x128_1 b1))) (broadcastInDim S50000x128 ![] bcast_S_S50000x128 (constant S_ .f32 0x00000000#32))) W2) (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000)))))) (broadcastInDim S50000x64 ![0, 1] bcast_S1x64_S50000x64_0_1 (broadcastInDim S1x64 ![1] bcast_S64_S1x64_1 b2))) (broadcastInDim S50000x64 ![] bcast_S_S50000x64 (constant S_ .f32 0x00000000#32))) Wl) (broadcastInDim S50000x2 ![0, 1] bcast_S1x2_S50000x2_0_1 (broadcastInDim S1x2 ![1] bcast_S2_S1x2_1 bl))

open Idealize.ShloMosaic.ValueIdx in
/-- The edge weights as a column: broadcasting [E] along axis 0 of [E,1] reads, at (e, 0), entry e — as the reshape,
    which keeps the row-major position e·1 + 0, does. -/
theorem ew_col (ew : FVec F S800000 .f32) (hb : S800000.BroadcastsInDim S800000x1 (![0] : Fin 1 → Fin S800000x1.rank))
    (hc : S800000.ShapeCasts S800000x1) :
    broadcastInDim S800000x1 ![0] hb ew = shapeCast S800000x1 ew hc := by
  funext j
  refine (broadcastInDim_apply _ _ ew j (ix1 (j 0)) ?_).trans (shapeCast_apply ew _ j (ix1 (j 0)) ?_).symm
  · intro a
    match a with
    | ⟨0, _⟩ => rfl
  · rw [Shape.rowMajor_val_one, Shape.rowMajor_val_two]
    have h1 : (j 1).val < 1 := (j 1).isLt
    show (j 0).val = (j 0).val * 1 + (j 1).val
    omega

open Idealize.ShloMosaic.ValueIdx in
/-- A bias as a row: broadcasting [n] along axis 1 of [1,n] reads, at (0, c), entry c — as the reshape, which keeps the
    row-major position 0·n + c, does. -/
theorem bias_row {n : ℕ} (hn : n ≠ 1) (b : FVec F ⟨1, ![n]⟩ .f32)
    (hb : (⟨1, ![n]⟩ : Shape).BroadcastsInDim ⟨2, ![1, n]⟩ (![1] : Fin 1 → Fin 2))
    (hc : (⟨1, ![n]⟩ : Shape).ShapeCasts ⟨2, ![1, n]⟩) :
    broadcastInDim (⟨2, ![1, n]⟩ : Shape) ![1] hb b = shapeCast ⟨2, ![1, n]⟩ b hc := by
  funext j
  refine (broadcastInDim_apply _ _ b j (ix1 (j 1)) ?_).trans (shapeCast_apply b _ j (ix1 (j 1)) ?_).symm
  · intro a
    match a with
    | ⟨0, _⟩ =>
      show (j 1).val = if n = 1 then 0 else (j 1).val
      rw [if_neg hn]
  · rw [Shape.rowMajor_val_one, Shape.rowMajor_val_two]
    have h0 : (j 0).val < 1 := (j 0).isLt
    show (j 1).val = (j 0).val * n + (j 1).val
    have : (j 0).val = 0 := by omega
    rw [this, Nat.zero_mul, Nat.zero_add]

/-! The shape records of the two programs' vocabularies carry the same dimension numbers. -/
theorem gather128_eq : gather_S50000x128_S800000x1_S800000x128_1_0_n_n_0_1_1128
    = Cert.KernelIdeal.gather_S50000x128_S800000x1_S800000x128_1_0_n_n_0_1_1128 := rfl
theorem gather64_eq : gather_S50000x64_S800000x1_S800000x64_1_0_n_n_0_1_164
    = Cert.KernelIdeal.gather_S50000x64_S800000x1_S800000x64_1_0_n_n_0_1_164 := rfl
theorem scatter128_eq : scatter_S50000x128_S800000x1_S800000x128_1_0_0_1
    = Cert.KernelIdeal.scatter_S50000x128_S800000x1_S800000x128_1_0_0_1 := rfl
theorem scatter64_eq : scatter_S50000x64_S800000x1_S800000x64_1_0_0_1
    = Cert.KernelIdeal.scatter_S50000x64_S800000x1_S800000x64_1_0_0_1 := rfl
theorem dot1_eq : dot_S50000x128_S128x128_S50000x128_1_0_0_1_n_n = Cert.KernelIdeal.Whole.dd1 := rfl
theorem dot2_eq : dot_S50000x128_S128x64_S50000x64_1_0_0_1_n_n = Cert.KernelIdeal.Whole.dd2 := rfl
theorem dot3_eq : dot_S50000x64_S64x2_S50000x2_1_0_0_1_n_n = Cert.KernelIdeal.Whole.dd3 := rfl

/-- The reference computes the same composition of whole-array stages: its reshapes of the weights and biases by
    broadcast are the program's reshapes, its operations the same at the same shapes. -/
theorem refTerm_eq (x : FVec F S50000x128 .f32) (ei : IVec S2x800000 32) (ew : FVec F S800000 .f32) (W1 : FVec F S128x128 .f32)
    (b1 : FVec F S128 .f32) (W2 : FVec F S128x64 .f32) (b2 : FVec F S64 .f32) (Wl : FVec F S64x2 .f32) (bl : FVec F S2 .f32) :
    refTerm x ei ew W1 b1 W2 b2 Wl bl = Cert.KernelIdeal.Whole.out x ei ew W1 b1 W2 b2 Wl bl := by
  unfold refTerm Cert.KernelIdeal.Whole.out Cert.KernelIdeal.Whole.brmmb64 Cert.KernelIdeal.Whole.agg64
    Cert.KernelIdeal.Whole.wmul64 Cert.KernelIdeal.Whole.take64 Cert.KernelIdeal.Whole.brmm128 Cert.KernelIdeal.Whole.agg128
    Cert.KernelIdeal.Whole.wmul128 Cert.KernelIdeal.Whole.take128 Cert.KernelIdeal.Whole.mm1 Cert.KernelIdeal.Whole.wrapIdx
    Cert.KernelIdeal.Whole.srcVec Cert.KernelIdeal.Whole.dstVec
  rw [gather128_eq, gather64_eq, scatter128_eq, scatter64_eq, dot1_eq, dot2_eq, dot3_eq,
    ew_col ew _ Cert.KernelIdeal.Gen.shapeCasts_S800000_S800000x1,
    bias_row (by decide) b1 _ Cert.KernelIdeal.Gen.shapeCasts_S128_S1x128,
    bias_row (by decide) b2 _ Cert.KernelIdeal.Gen.shapeCasts_S64_S1x64,
    bias_row (by decide) bl _ Cert.KernelIdeal.Gen.shapeCasts_S2_S1x2]

end Cert.ReferenceIdeal.Stages

end
-- ==== Proof.lean ====
/-
  The certificate: a two-layer graph convolution (project the nodes, take each edge's source row, scale it by the edge
  weight, sum the messages into the destination nodes, add the bias, take the maximum with zero; twice; then a final
  projection with its bias) computed by five kernel calls among host stretches, against the same network in plain array
  operations.

  Frames: the two kernel programs' runs are the generated frame certificates; the reference's frame is its generated run
  with the result dropped. The idealization rewrote no operation, so there is nothing to preserve.

  Value (extended reals): the kernel program's result array, read back through its ten segments (Proof/Chain.lean over
  the five calls' whole-array values, Proof/Region0 … Region4), and the reference's result term (Proof/RefStages.lean)
  are the SAME composition of whole-array stages of the nine arguments: the projections are the same sums of products
  (a change of float format is the identity, a product into a zero accumulator is the product), a row scaled by its
  weight is the weight times the row (multiplication commutes), and the two takes — the kernel program's in fill form,
  the reference's clamped — read the same rows because the precondition keeps every source index a valid NumPy index
  into the 50000-row node table (Proof/PreDecode.lean, Proof/TakeMask.lean). No law used needs finiteness.
-/
import proofs.«424225_j3822520893440_1_alg».proof.Defs
import proofs.«424225_j3822520893440_1_alg».proof.Proof.Gen.Kernel
import proofs.«424225_j3822520893440_1_alg».proof.Proof.Gen.Kernel.Frame
import proofs.«424225_j3822520893440_1_alg».proof.Proof.Gen.KernelIdeal
import proofs.«424225_j3822520893440_1_alg».proof.Proof.Gen.KernelIdeal.Frame
import proofs.«424225_j3822520893440_1_alg».proof.Proof.Gen.ReferenceIdeal
import proofs.«424225_j3822520893440_1_alg».proof.Proof.Gen.ReferenceIdeal.Run
import proofs.«424225_j3822520893440_1_alg».proof.Proof.Gen.Pre_finite_inputs
import proofs.«424225_j3822520893440_1_alg».proof.Proof.KernelRun
import proofs.«424225_j3822520893440_1_alg».proof.Proof.Chain
import proofs.«424225_j3822520893440_1_alg».proof.Proof.PreDecode
import proofs.«424225_j3822520893440_1_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the two-layer graph convolution of the nine arguments: the kernel program by its run read
    back through the segments, under the precondition's range of the source indices; the reference by its run's term. -/
theorem algebraic : Cert.algebraic_KernelIdeal_ReferenceIdeal := by
  intro m ρ m' ρ' hpre hagree
  refine ⟨fun c => Cert.KernelIdeal.Whole.out (F := Ideal)
      (Cert.KernelIdeal.Chain.ax m c) (Cert.KernelIdeal.Chain.aei m c) (Cert.KernelIdeal.Chain.aew m c)
      (Cert.KernelIdeal.Chain.aW1 m c) (Cert.KernelIdeal.Chain.ab1 m c) (Cert.KernelIdeal.Chain.aW2 m c)
      (Cert.KernelIdeal.Chain.ab2 m c) (Cert.KernelIdeal.Chain.aWl m c) (Cert.KernelIdeal.Chain.abl m c), ?_, ?_⟩
  · exact (θ_run Cert.KernelIdeal.defs _ _).mono
      (fun r h c => ⟨(h c).1.trans (Cert.KernelIdeal.Chain.W10_v20 m ρ c
          (fun e => Cert.KernelIdeal.PreDecode.src_in_range m hpre c e)), (h c).2⟩)
      (Cert.KernelIdeal.Launch.run_v20 (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Stages.refTerm_eq (F := Ideal) _ _ _ _ _ _ _ _ _).trans ?_
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
